-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4x4096x4096 : Shape := ⟨3, ![4, 4096, 4096]⟩
abbrev S4x256x256 : Shape := ⟨3, ![4, 256, 256]⟩
abbrev S4x256 : Shape := ⟨2, ![4, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_

variable [Facts]

def fn_part1 {F : FTy → Type} [FloatOps F] (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : IVec S_ 1 := andi main_v13 main_v17
  main_v18

def fn {F : FTy → Type} [FloatOps F] (main_arg0 : FVec F S4096x256 .f32) (main_arg1 : FVec F S4x4096x4096 .f32) (main_arg2 : FVec F S4x256x256 .f32) (main_arg3 : FVec F S4x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4x256x256 .f32 := Host.absf main_arg2
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S4x256 .f32 := Host.absf main_arg3
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_v13 main_v16
-- ==== Kernel.lean ====
abbrev S4096x256 : Shape := ⟨2, ![4096, 256]⟩
abbrev S4x4096x4096 : Shape := ⟨3, ![4, 4096, 4096]⟩
abbrev S4x256x256 : Shape := ⟨3, ![4, 256, 256]⟩
abbrev S4x256 : Shape := ⟨2, ![4, 256]⟩
abbrev S4x1x256 : Shape := ⟨3, ![4, 1, 256]⟩
abbrev S1x512x2048 : Shape := ⟨3, ![1, 512, 2048]⟩
abbrev S1x256x256 : Shape := ⟨3, ![1, 256, 256]⟩
abbrev S256x256 : Shape := ⟨2, ![256, 256]⟩
abbrev S1x1x256 : Shape := ⟨3, ![1, 1, 256]⟩
abbrev S1x256 : Shape := ⟨2, ![1, 256]⟩
abbrev S512x2048 : Shape := ⟨2, ![512, 2048]⟩
abbrev S2048x256 : Shape := ⟨2, ![2048, 256]⟩
abbrev S512x256 : Shape := ⟨2, ![512, 256]⟩

abbrev nBuf : Space → Nat
  | .hbm => 6
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4x4096x4096, .f32⟩
  | .hbm, ⟨2, _⟩ => ⟨S4x256x256, .f32⟩
  | .hbm, ⟨3, _⟩ => ⟨S4x256, .f32⟩
  | .hbm, ⟨4, _⟩ => ⟨S4x1x256, .f32⟩
  | .hbm, ⟨5, _⟩ => ⟨S4096x256, .f32⟩
  | .local _ .vmem, ⟨0, _⟩ => ⟨S4096x256, .f32⟩
  | .local _ .vmem, ⟨1, _⟩ => ⟨S4x256x256, .f32⟩
  | .local _ .vmem, ⟨2, _⟩ => ⟨S4x1x256, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S4096x256, .f32⟩
  | .local _ .vmem, ⟨8, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let v25 : Index := Scalar.indexCast arg0
  let c0_18 : Index := 0#32
  let c0_19 : Index := 0#32
  ![v25.toNat, 0, 0]
def k0_off2 (i : grid0.Coords) : Fin 3 → Nat :=
  let arg0 : BitVec 32 := BitVec.ofNat 32 (i 0).val
  let v29 : Index := Scalar.indexCast arg0
  let c0_21 : Index := 0#32
  let c0_22 : Index := 0#32
  ![v29.toNat, 0, 0]
def k0_cond2 (i : grid0.Coords) : BitVec 1 :=
  let arg0 : BitVec 32 := BitVec.ofNat 32 (i 0).val
  let c0_i32_10 : BitVec 32 := 0#32
  let v13 : BitVec 1 := Scalar.cmpi .eq arg0 c0_i32_10
  let v14 : BitVec 32 := Scalar.extui v13
  let c0_i32_11 : BitVec 32 := 0#32
  let v15 : BitVec 1 := Scalar.cmpi .ne v14 c0_i32_11
  v15

def k0_off3 (i : grid0.Coords) : Fin 2 → Nat :=
  let arg1 : BitVec 32 := BitVec.ofNat 32 (i 1).val
  let c512_i32 : BitVec 32 := 512#32
  let v12 : BitVec 32 := Scalar.muli arg1 c512_i32
  let v24 : Index := Scalar.indexCast v12
  let c0_16 : Index := 0#32
  ![v24.toNat, 0]
def k0_cond3 (i : grid0.Coords) : BitVec 1 :=
  let arg0 : BitVec 32 := BitVec.ofNat 32 (i 0).val
  let c0_i32_12 : BitVec 32 := 0#32
  let v16 : BitVec 1 := Scalar.cmpi .sgt arg0 c0_i32_12
  let c3_i32 : BitVec 32 := 3#32
  let v17 : BitVec 1 := Scalar.cmpi .slt arg0 c3_i32
  let v18 : BitVec 1 := Scalar.andi v16 v17
  let v19 : BitVec 32 := Scalar.extui v18
  let c0_i32_13 : BitVec 32 := 0#32
  let v20 : BitVec 1 := Scalar.cmpi .ne v19 c0_i32_13
  v20

def k0_off4 (i : grid0.Coords) : Fin 2 → Nat :=
  let arg1 : BitVec 32 := BitVec.ofNat 32 (i 1).val
  let c512_i32 : BitVec 32 := 512#32
  let v12 : BitVec 32 := Scalar.muli arg1 c512_i32
  let v24 : Index := Scalar.indexCast v12
  let c0_16 : Index := 0#32
  ![v24.toNat, 0]
def k0_cond4 (i : grid0.Coords) : BitVec 1 :=
  let arg0 : BitVec 32 := BitVec.ofNat 32 (i 0).val
  let c3_i32_14 : BitVec 32 := 3#32
  let v21 : BitVec 1 := Scalar.cmpi .eq arg0 c3_i32_14
  let v22 : BitVec 32 := Scalar.extui v21
  let c0_i32_15 : BitVec 32 := 0#32
  let v23 : BitVec 1 := Scalar.cmpi .ne v22 c0_i32_15
  v23

def k0_off5 (i : grid0.Coords) : Fin 2 → Nat :=
  let arg1 : BitVec 32 := BitVec.ofNat 32 (i 1).val
  let c512_i32 : BitVec 32 := 512#32
  let v12 : BitVec 32 := Scalar.muli arg1 c512_i32
  let v24 : Index := Scalar.indexCast v12
  let c0_16 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4096x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  shapeCasts_S4x256_S4x1x256 : S4x256.ShapeCasts S4x1x256
  inb_S4096x256_S4096x256_0_0 : ∀ a, (![0, 0] : Fin 2 → Nat) a + S4096x256.size a ≤ S4096x256.size a
  h_S4096x256 : 0 < S4096x256.numel
  h_S1x256x256 : 0 < S1x256x256.numel
  shapeCasts_S1x256x256_S256x256 : S1x256x256.ShapeCasts S256x256
  h_S1x1x256 : 0 < S1x1x256.numel
  shapeCasts_S1x1x256_S1x256 : S1x1x256.ShapeCasts S1x256
  broadcasts_S1x256_S4096x256 : S1x256.Broadcasts S4096x256
  shapeCasts_S4096x256_S4096x256 : S4096x256.ShapeCasts S4096x256
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S4096x256_S2048x256_0_0 : ∀ a, (![0, 0] : Fin 2 → Nat) a + S2048x256.size a ≤ S4096x256.size a
  h_S2048x256 : 0 < S2048x256.numel
  inb_S4096x256_S2048x256_2048_0 : ∀ a, (![2048, 0] : Fin 2 → Nat) a + S2048x256.size a ≤ S4096x256.size a
  h_S512x256 : 0 < S512x256.numel
  shapeCasts_S512x256_S512x256 : S512x256.ShapeCasts S512x256
  dot_S4096x256_S256x256_S4096x256_1_1_0_0_n_n_wf : DotDims.WF S4096x256 S256x256 S4096x256 [1] [1] [0] [0] [] []
  dot_S512x2048_S2048x256_S512x256_1_0_0_1_n_n_wf : DotDims.WF S512x2048 S2048x256 S512x256 [1] [0] [0] [1] [] []
  hrank0 : 0 < grid0.rank
  k0_off1_inb : ∀ i : grid0.Coords, ∀ (k0_h1 : k0_cond1 i = 1#1), ∀ a, (k0_off1 i) a + S1x256x256.size a ≤ S4x256x256.size a
  k0_off2_inb : ∀ i : grid0.Coords, ∀ (k0_h1 : k0_cond1 i = 1#1), ∀ a, (k0_off2 i) a + S1x1x256.size a ≤ S4x1x256.size a
  k0_off3_inb : ∀ i : grid0.Coords, ∀ (k0_h2 : k0_cond2 i = 1#1), ∀ a, (k0_off3 i) a + S512x256.size a ≤ S4096x256.size a
  k0_off4_inb : ∀ i : grid0.Coords, ∀ (k0_h3 : k0_cond3 i = 1#1), ∀ a, (k0_off4 i) a + S512x256.size a ≤ S4096x256.size a
  k0_off5_inb : ∀ i : grid0.Coords, ∀ (k0_h4 : k0_cond4 i = 1#1), ∀ a, (k0_off5 i) a + S512x256.size a ≤ S4096x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x256.size a ≤ S4x256x256.size a
  hwx0_1 : ∀ i : grid0.Coords, EltTy.bits .f32 = 32 ∨ (Rect.block (s := S4x256x256) S4x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1x256.size a ≤ S4x1x256.size a
  hwx0_2 : ∀ i : grid0.Coords, EltTy.bits .f32 = 32 ∨ (Rect.block (s := S4x1x256) S4x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S4x4096x4096.size a
  hwx0_3 : ∀ i : grid0.Coords, EltTy.bits .f32 = 32 ∨ (Rect.block (s := S4x4096x4096) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S4x4096x4096.size a
  hwx0_4 : ∀ i : grid0.Coords, EltTy.bits .f32 = 32 ∨ (Rect.block (s := S4x4096x4096) S1x512x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x256.size a
  hwx0_5 : ∀ i : grid0.Coords, EltTy.bits .f32 = 32 ∨ (Rect.block (s := S4096x256) S4096x256.size (cc0_transform_5 i) (hinb0_5 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S4x1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) && !(k0_cond3 i == 1#1) && !(k0_cond4 i == 1#1) | ⟨_ + 6, h⟩ => absurd h (Nat.not_lt.2 (Nat.le_add_left _ _))

class Facts : Prop extends Facts₀ where

variable [Facts]
-- ==== ReferenceIdeal.lean ====
abbrev S4096x256 : Shape := ⟨2, ![4096, 256]⟩
abbrev S4x4096x4096 : Shape := ⟨3, ![4, 4096, 4096]⟩
abbrev S4x256x256 : Shape := ⟨3, ![4, 256, 256]⟩
abbrev S4x256 : Shape := ⟨2, ![4, 256]⟩
abbrev S4x256x4096 : Shape := ⟨3, ![4, 256, 4096]⟩
abbrev S4x4096x256 : Shape := ⟨3, ![4, 4096, 256]⟩
abbrev S4x1x256 : Shape := ⟨3, ![4, 1, 256]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4x4096x4096, .f32⟩
  | .hbm, ⟨2, _⟩ => ⟨S4x256x256, .f32⟩
  | .hbm, ⟨3, _⟩ => ⟨S4x256, .f32⟩
  | .hbm, ⟨4, _⟩ => ⟨S4x256x4096, .f32⟩
  | .hbm, ⟨5, _⟩ => ⟨S4x4096x256, .f32⟩
  | .hbm, ⟨6, _⟩ => ⟨S4x1x256, .f32⟩
  | .hbm, ⟨7, _⟩ => ⟨S4x4096x256, .f32⟩
  | .hbm, ⟨8, _⟩ => ⟨S4x4096x256, .f32⟩
  | .hbm, ⟨9, _⟩ => ⟨S4x4096x256, .f32⟩
  | .hbm, ⟨10, _⟩ => ⟨S_, .f32⟩
  | .hbm, ⟨11, _⟩ => ⟨S4096x256, .f32⟩
  | .hbm, ⟨12, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  transposes_S4x256x4096_S4x4096x256_0_2_1 : S4x256x4096.Transposes [0, 2, 1] S4x4096x256
  bcast_S4x256_S4x1x256_0_2 : S4x256.BroadcastsInDim S4x1x256 (![0, 2] : Fin 2 → Fin S4x1x256.rank)
  bcast_S4x1x256_S4x4096x256_0_1_2 : S4x1x256.BroadcastsInDim S4x4096x256 (![0, 1, 2] : Fin 3 → Fin S4x4096x256.rank)
  reducesTo_S4x4096x256_S4096x256_d0 : S4x4096x256.ReducesTo [0] S4096x256
  h_S_ : 0 < S_.numel
  dot_S4x256x256_S4096x256_S4x256x4096_2_1_01_0_n_n_wf : DotDims.WF S4x256x256 S4096x256 S4x256x4096 [2] [1] [0, 1] [0] [] []
  dot_S4x4096x4096_S4x4096x256_S4x4096x256_2_1_1_2_0_0_wf : DotDims.WF S4x4096x4096 S4x4096x256 S4x4096x256 [2] [1] [1] [2] [0] [0]

variable [Facts₀]

def dot_S4x256x256_S4096x256_S4x256x4096_2_1_01_0_n_n : DotDims S4x256x256 S4096x256 S4x256x4096 where
  lhsContracting := [2]
  rhsContracting := [1]
  lhsNonContracting := [0, 1]
  rhsNonContracting := [0]
  lhsBatch := []
  rhsBatch := []
  wf := dot_S4x256x256_S4096x256_S4x256x4096_2_1_01_0_n_n_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.KI.Kit.lean ====
import proofs.«119680_g8435315769495_cont_9to1_m_1357_9_alg».proof.Proof.Gen.KernelIdeal.Launch
import proofs.«119680_g8435315769495_cont_9to1_m_1357_9_alg».proof.Proof.Gen.KernelIdeal.Skeleton
import proofs.«119680_g8435315769495_cont_9to1_m_1357_9_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! The program around its one kernel region: the arrays as the region finds them (the one host
operation before it only reshapes the bias into a buffer of its own), each window's block at a grid
point, and the four branch conditions of the body in closed form over the 32 grid points
(point t is relation t / 8, row tile t % 8). -/

set_option maxRecDepth 16384

noncomputable section

namespace Cert.KernelIdeal.Rgcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only its own result buffer: each argument array is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's four conditions over the grid -/

theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
theorem hcond2 : ∀ t : Fin cfg0.N, k0_cond2 (grid0.coords t) = 1#1 ↔ t.val / 8 = 0 :=
  (by decide +kernel : ∀ t : Fin grid0.N, k0_cond2 (grid0.coords t) = 1#1 ↔ t.val / 8 = 0)
theorem hcond3 : ∀ t : Fin cfg0.N, k0_cond3 (grid0.coords t) = 1#1 ↔ (t.val / 8 = 1 ∨ t.val / 8 = 2) :=
  (by decide +kernel : ∀ t : Fin grid0.N, k0_cond3 (grid0.coords t) = 1#1 ↔ (t.val / 8 = 1 ∨ t.val / 8 = 2))
theorem hcond4 : ∀ t : Fin cfg0.N, k0_cond4 (grid0.coords t) = 1#1 ↔ t.val / 8 = 3 :=
  (by decide +kernel : ∀ t : Fin grid0.N, k0_cond4 (grid0.coords t) = 1#1 ↔ t.val / 8 = 3)

/-- The grid point's coordinates: relation and row tile. -/
theorem coords0 : ∀ t : Fin cfg0.N, ((grid0.coords t) 0).val = t.val / 8 :=
  (by decide +kernel : ∀ t : Fin grid0.N, ((grid0.coords t) 0).val = t.val / 8)
theorem coords1 : ∀ t : Fin cfg0.N, ((grid0.coords t) 1).val = t.val % 8 :=
  (by decide +kernel : ∀ t : Fin grid0.N, ((grid0.coords t) 1).val = t.val % 8)

/-! ## The staging memrefs the pipeline passes the body at a point -/

abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4096x256 .f32 := win0_5.stage (cfg0.slots t 5)
abbrev hs5 (t : Fin cfg0.N) : (ms5 t).IsWhole := hstage0_5 ((cfg0.slots t 5).cast nbuf0_5)
/-- The scratch the kernel keeps the current relation's supports in. -/
abbrev scM : Memref sig .tc .vmem S4096x256 .f32 := Memref.whole cc0_scratch0

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Rgcn

end
-- ==== Proof.KI.Data.lean ====
import proofs.«119680_g8435315769495_cont_9to1_m_1357_9_alg».proof.Proof.KI.Kit

set_option maxRecDepth 16384

noncomputable section

namespace Cert.KernelIdeal.Rgcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-! The proof data of the one pipeline, relationally.

The kernel keeps two things across grid points. Its scratch holds the supports of the current
relation: point t (relation t / 8, row tile t % 8) rewrites it whole when t % 8 = 0 and only reads
it otherwise, so after point t it holds the supports computed at point 8 * (t / 8). Its output
window's staging buffer is the whole result array; point t overwrites rows [512 * (t % 8), +512)
with the tile's contribution (relation 0), with what was there plus the contribution (relations
1, 2), or with tanh of that sum (relation 3), and leaves every other row as found. Since the
buffer starts at contents nothing names, the data say how a point CHANGES it (`outNew`), not what
it holds. The two windows on the adjacency array each hold half its share. -/

variable (m : (ℓ : Loc nD τ sig) → Buf (Elt F) ℓ) (ρ : Dev nD → PrngReg)

/-- The supports as the body computes them at a point of row tile 0: x · W[r]ᵀ + b[r], from the
    three resident blocks. -/
def supOf (x0 : Vec F S4096x256 .f32) (x1 : Vec F S4x256x256 .f32) (x2 : Vec F S4x1x256 .f32) (i : grid0.Coords)
    (h1 : k0_cond1 i = 1#1) : Vec F S4096x256 .f32 :=
  k0_pay1 (View.ld x0 (Rect.unit (s := S4096x256) ![0, 0] S4096x256.size inb_S4096x256_S4096x256_0_0))
    (View.ld x1 (Rect.unit (s := S4x256x256) (k0_off1 i) S1x256x256.size (k0_off1_inb i h1)))
    (View.ld x2 (Rect.unit (s := S4x1x256) (k0_off2 i) S1x1x256.size (k0_off2_inb i h1)))

/-- The same at a grid point, over the arrays' blocks there. -/
def supAt (c : Dev nD) (t : Fin cfg0.N) (h1 : k0_cond1 (grid0.coords t) = 1#1) : Vec F S4096x256 .f32 :=
  supOf (iblk m c 0 t) (iblk m c 1 t) (iblk m c 2 t) (grid0.coords t) h1

theorem supAt_congr (c : Dev nD) {t t' : Fin cfg0.N} (h : t = t') (h1 : k0_cond1 (grid0.coords t) = 1#1)
    (h1' : k0_cond1 (grid0.coords t') = 1#1) : supAt m c t h1 = supAt m c t' h1' := by
  subst h; rfl

theorem tile0_lt (n : ℕ) (hn : n < cfg0.N) : 8 * (n / 8) < cfg0.N := by
  have hN : cfg0.N = 32 := N_0
  omega

/-- What the scratch holds after point `n`: the supports computed at the first point of `n`'s relation. -/
def scrAt (c : Dev nD) (n : ℕ) (hn : n < cfg0.N) : Vec F S4096x256 .f32 :=
  supAt m c ⟨8 * (n / 8), tile0_lt n hn⟩ ((hcond1 ⟨8 * (n / 8), tile0_lt n hn⟩).mpr (Nat.mul_mod_right 8 (n / 8)))

/-- The two adjacency half-tiles the body loads at point `t`, and the two halves of the supports. -/
def adjLo (c : Dev nD) (t : Fin cfg0.N) : Vec F S1x512x2048 .f32 :=
  View.ld (iblk m c 3 t) (Rect.unit (s := S1x512x2048) ![0, 0, 0] S1x512x2048.size inb_S1x512x2048_S1x512x2048_0_0_0)
def adjHi (c : Dev nD) (t : Fin cfg0.N) : Vec F S1x512x2048 .f32 :=
  View.ld (iblk m c 4 t) (Rect.unit (s := S1x512x2048) ![0, 0, 0] S1x512x2048.size inb_S1x512x2048_S1x512x2048_0_0_0)
def supLo (c : Dev nD) (t : Fin cfg0.N) : Vec F S2048x256 .f32 :=
  View.ld (scrAt m c t.val t.isLt) (Rect.unit (s := S4096x256) ![0, 0] S2048x256.size inb_S4096x256_S2048x256_0_0)
def supHi (c : Dev nD) (t : Fin cfg0.N) : Vec F S2048x256 .f32 :=
  View.ld (scrAt m c t.val t.isLt) (Rect.unit (s := S4096x256) ![2048, 0] S2048x256.size inb_S4096x256_S2048x256_2048_0)

/-- What point `t` makes of the output's staging buffer, given what it found there. -/
def outNew (c : Dev nD) (t : Fin cfg0.N) (Y : Vec F S4096x256 .f32) : Vec F S4096x256 .f32 :=
  if h2 : k0_cond2 (grid0.coords t) = 1#1 then
    (Rect.unit (s := S4096x256) (k0_off3 (grid0.coords t)) S512x256.size (k0_off3_inb _ h2)).overlay Y
      (k0_pay2 (adjLo m c t) (supLo m c t) (adjHi m c t) (supHi m c t))
  else if h3 : k0_cond3 (grid0.coords t) = 1#1 then
    (Rect.unit (s := S4096x256) (k0_off4 (grid0.coords t)) S512x256.size (k0_off4_inb _ h3)).overlay Y
      (k0_pay3 (adjLo m c t) (supLo m c t) (adjHi m c t) (supHi m c t)
        (View.ld Y (Rect.unit (s := S4096x256) (k0_off4 (grid0.coords t)) S512x256.size (k0_off4_inb _ h3))))
  else if h4 : k0_cond4 (grid0.coords t) = 1#1 then
    (Rect.unit (s := S4096x256) (k0_off5 (grid0.coords t)) S512x256.size (k0_off5_inb _ h4)).overlay Y
      (k0_pay4 (adjLo m c t) (supLo m c t) (adjHi m c t) (supHi m c t)
        (View.ld Y (Rect.unit (s := S4096x256) (k0_off5 (grid0.coords t)) S512x256.size (k0_off5_inb _ h4))))
  else Y

/-- The region invariant before position `n`: before the first point the class's (the scratch at anything);
    afterwards the scratch at the supports of the relation of the point before. -/
def PhiS (c : Dev nD) : (n : ℕ) → n ≤ cfg0.N → sProp 𝕄
  | 0, _ => Pipeline.ΦA spec0 c
  | n + 1, hn => iprop(iprop(owns (c : Thread nD τ) scM fullShare (scrAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scrAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (scrAt m c (n - 1) (by omega))) ∗ (∃ r, prngReg c r)) := by
  cases n with
  | zero => exact absurd rfl hz
  | succ n => rfl

/-- The proof data on core `c`. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = outNew m c t Y
  Φ t := PhiS m c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (rdat m c).A w = V m c (Pipeline.arrRef spec0 w) := by
  dsimp only [rdat]

theorem Phi_castSucc (c : Dev nD) (t : Fin cfg0.N) :
    (rdat m c).Φ t.castSucc = PhiS m c t.val (Nat.le_of_lt t.isLt) := by
  dsimp only [rdat]; simp only [Fin.coe_castSucc]

theorem after0 (c : Dev nD) (t : Fin cfg0.N) (Y X) : (rdat m c).after 0 t Y X ↔ X = Y := by dsimp only [rdat]; exact Iff.rfl
theorem after1 (c : Dev nD) (t : Fin cfg0.N) (Y X) : (rdat m c).after 1 t Y X ↔ X = Y := by dsimp only [rdat]; exact Iff.rfl
theorem after2 (c : Dev nD) (t : Fin cfg0.N) (Y X) : (rdat m c).after 2 t Y X ↔ X = Y := by dsimp only [rdat]; exact Iff.rfl
theorem after3 (c : Dev nD) (t : Fin cfg0.N) (Y X) : (rdat m c).after 3 t Y X ↔ X = Y := by dsimp only [rdat]; exact Iff.rfl
theorem after4 (c : Dev nD) (t : Fin cfg0.N) (Y X) : (rdat m c).after 4 t Y X ↔ X = Y := by dsimp only [rdat]; exact Iff.rfl
theorem after5 (c : Dev nD) (t : Fin cfg0.N) (Y X) : (rdat m c).after 5 t Y X ↔ X = outNew m c t Y := by dsimp only [rdat]; exact Iff.rfl

end Cert.KernelIdeal.Rgcn

end
-- ==== Proof.KI.BodyDefs.lean ====
import proofs.«119680_g8435315769495_cont_9to1_m_1357_9_alg».proof.Proof.KI.Data

set_option maxRecDepth 16384

noncomputable section

namespace Cert.KernelIdeal.Rgcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-! The body obligation at one grid point, window by window, and what the body finds in the five
input windows: each holds its array's block at the point, fetched there or not (an unfetched
window's index map has not moved, and the body leaves inputs as it found them). -/

variable (m : (ℓ : Loc nD τ sig) → Buf (Elt F) ℓ) (ρ : Dev nD → PrngReg)

/-- What the body is called with at point `t`, the windows' buffers at contents `Y`. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5))

/-- What it returns: each buffer at contents in the window's relation to what it was handed. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X))

/-- The library's body obligation from the triple at every point. -/
theorem body_obligation_of
    (h : ∀ (c : Dev nD) (t : Fin cfg0.N) (Y : (w : Fin cfg0.W) → (cfg0.win w).block.Idx → Elt F (cfg0.win w).elt),
      (∀ w, (rdat m c).Finds w t (Y w)) →
      bodyPre m c t Y ⊢ wp frame (wpE (defs₀ (F := F)) Variants.none c none) Set.univ (bodyAt0 t) (fun _ => bodyPost m c t Y))
    (c : Dev nD) : (rdat (F := F) m c).BodyObligation (defs₀ (F := F)) Variants.none () Set.univ := fun t Y hY => by
  rw [bigSep_W0, bigSep_W0]
  exact h c t Y hY

/-- An input window's buffer holds its block wherever the body is handed it. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X hR => (after0 m c t Y X).mp hR) t Y h
  rw [hd]; unfold RDat.fetched RDat.blockOf iblk; rw [A_eq]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X hR => (after1 m c t Y X).mp hR) t Y h
  rw [hd]; unfold RDat.fetched RDat.blockOf iblk; rw [A_eq]; try rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X hR => (after2 m c t Y X).mp hR) t Y h
  rw [hd]; unfold RDat.fetched RDat.blockOf iblk; rw [A_eq]; try rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X hR => (after3 m c t Y X).mp hR) t Y h
  rw [hd]; unfold RDat.fetched RDat.blockOf iblk; rw [A_eq]; try rfl
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun t Y X hR => (after4 m c t Y X).mp hR) t Y h
  rw [hd]; unfold RDat.fetched RDat.blockOf iblk; rw [A_eq]; try rfl

end Cert.KernelIdeal.Rgcn

end
-- ==== Proof.KI.BodyTile0.lean ====
import proofs.«119680_g8435315769495_cont_9to1_m_1357_9_alg».proof.Proof.KI.BodyDefs

set_option maxRecDepth 16384

noncomputable section

namespace Cert.KernelIdeal.Rgcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body at the four points of row tile 0 (t = 0, 8, 16, 24): there the kernel first rewrites its scratch with the
relation's supports x · W[r]ᵀ + b[r], whatever the scratch held, and then updates row tile 0 of the output from the two
adjacency half-tiles and the two halves of the scratch. One run of the body per relation class (relation 0 overwrites the
row tile, relations 1 and 2 add to it, relation 3 adds and takes tanh), on whole memrefs at any contents, with what
each buffer holds afterwards in closed form; then the obligation's statement at a grid point from the run. -/

/-- One store through a rectangle of a view, read back: the prior contents with the rectangle's part replaced
    by the payload. -/
theorem t0_read_writes_one {sg : RefSig} {κ : Kind} {sp : Space} {s : Shape} {e : EltTy} {Val : EltTy → Type}
    (v : View sg κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ := r.exists_idx_of_mem hy
    show v.read Val (v.writes Val f [⟨r, w⟩]) (r.emb x) = r.overlay (v.read Val f) w (r.emb x)
    rw [View.read_writes_cons_emb, Rect.overlay_emb]
  · rw [Rect.overlay_of_not_mem _ _ _ hy]
    exact View.read_writes_apply_of_forall_not_mem v f y _ (fun p hp => by
      rw [List.mem_singleton] at hp; subst hp; exact hy)

/-- The offsets of a rank-two array's whole rectangle are zero. -/
theorem t0_hz : (![0, 0] : Fin 2 → ℕ) = fun _ => 0 := by
  funext a; fin_cases a <;> rfl

/-- One store through the whole rectangle of a view, read back: the payload, whatever was there (every index is
    the whole rectangle's own index). -/
theorem t0_read_writes_whole {sg : RefSig} {κ : Kind} {sp : Space} {S : Shape} {e : EltTy} {Val : EltTy → Type}
    (v : View sg κ sp S e) (f : v.ty.Contents Val) {off : Fin S.rank → ℕ} (hz : off = fun _ => 0)
    (inb : ∀ a, off a + S.size a ≤ S.size a) (w : S.Idx → Val e) :
    v.read Val (v.writes Val f [(⟨Rect.unit off S.size inb, w⟩ : View.Piece Val S e)]) = w := by
  subst hz
  rw [t0_read_writes_one]
  funext y
  have e := Rect.overlay_emb (Rect.whole S) (v.read Val f) w y
  rw [Rect.emb_whole_apply] at e
  exact e

/-- A load through any rectangle after one store through the whole rectangle reads the payload there. -/
theorem t0_readCov_whole {sg : RefSig} {κ : Kind} {sp : Space} {S : Shape} {e : EltTy} {Val : EltTy → Type} [∀ e, Nonempty (Val e)]
    (v : View sg κ sp S e) {off : Fin S.rank → ℕ} (hz : off = fun _ => 0)
    (inb : ∀ a, off a + S.size a ≤ S.size a) (w : S.Idx → Val e) (r : Rect S) :
    v.readCov [(⟨Rect.unit off S.size inb, w⟩ : View.Piece Val S e)] r.toLoadRect = View.ld w r := by
  subst hz
  rw [View.readCov_eq_canon']
  funext j
  have e := View.canon_cons_emb (Val := Val) (Rect.whole S) w [] (r.idx j)
  rw [Rect.emb_whole_apply] at e
  exact e

set_option maxHeartbeats 2000000 in
/-- The body run at a point of row tile 0 of relation 0, on whole memrefs: it computes the supports x · W[r]ᵀ + b[r] into the scratch
    (whatever the scratch held), then overwrites its row tile of the output with the adjacency row tile times the supports; the inputs are handed back as found, the scratch holds the supports. -/
theorem t0_run2 (c : Dev nD) (i : grid0.Coords) (arg2 : Memref sig .tc .vmem S4096x256 .f32) (harg2 : arg2.IsWhole) (arg3 : Memref sig .tc .vmem S4x256x256 .f32) (harg3 : arg3.IsWhole) (arg4 : Memref sig .tc .vmem S4x1x256 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S4096x256 .f32) (harg7 : arg7.IsWhole) (arg8 : Memref sig .tc .vmem S4096x256 .f32) (harg8 : arg8.IsWhole)
    (hc1 : k0_cond1 i = 1#1) (hc2 : k0_cond2 i = 1#1) (hc3 : ¬ k0_cond3 i = 1#1) (hc4 : ¬ k0_cond4 i = 1#1)
    (x0 : Vec F S4096x256 .f32) (x1 : Vec F S4x256x256 .f32) (x2 : Vec F S4x1x256 .f32) (x3 x4 : Vec F S1x512x2048 .f32) (x5 : Vec F S4096x256 .f32)
    (E : Set ℕ) (K : PUnit → sProp 𝕄) :
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ owns (c : Thread nD τ) arg7 fullShare
                    ((Rect.unit (s := S4096x256) (k0_off3 i) S512x256.size (k0_off3_inb i hc2)).overlay x5
                      (k0_pay2 (View.ld x3 (Rect.unit (s := S1x512x2048) ![0, 0, 0] S1x512x2048.size inb_S1x512x2048_S1x512x2048_0_0_0))
                        (View.ld (supOf x0 x1 x2 i hc1) (Rect.unit (s := S4096x256) ![0, 0] S2048x256.size inb_S4096x256_S2048x256_0_0))
                        (View.ld x4 (Rect.unit (s := S1x512x2048) ![0, 0, 0] S1x512x2048.size inb_S1x512x2048_S1x512x2048_0_0_0))
                        (View.ld (supOf x0 x1 x2 i hc1) (Rect.unit (s := S4096x256) ![2048, 0] S2048x256.size inb_S4096x256_S2048x256_2048_0))))
                ∗ owns (c : Thread nD τ) arg8 fullShare (supOf x0 x1 x2 i hc1)) -∗ K ⟨⟩))
          ⊢ wp frame (wpE (defs₀ (F := F)) Variants.none c none) E (cc0__rgcn_body i arg2 harg2 arg3 harg3 arg4 harg4 arg5 harg5 arg6 harg6 arg7 harg7 arg8 harg8) K := by
  simp only [cc0__rgcn_body_eq_skeleton]; unfold cc0__rgcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [t0_read_writes_one, harg7.read_unread]
    sl_unfold_run_names
    unfold supOf
    simp only [View.readAt_eq_ld, harg2.read_unread, harg3.read_unread, harg4.read_unread, harg5.read_unread, harg6.read_unread,
      harg7.read_unread, t0_readCov_whole (S := S4096x256) _ t0_hz]
  · iexists _; isplitr; swap; · iexact HS
    ipureintro
    sl_unfold_run_names
    unfold supOf
    rw [t0_read_writes_whole (S := S4096x256) _ _ t0_hz]
    simp only [View.readAt_eq_ld, harg2.read_unread, harg3.read_unread, harg4.read_unread]

set_option maxHeartbeats 2000000 in
/-- The body run at a point of row tile 0 of relations 1 and 2, on whole memrefs: it computes the supports x · W[r]ᵀ + b[r] into the scratch
    (whatever the scratch held), then adds the adjacency row tile times the supports to its row tile of the output; the inputs are handed back as found, the scratch holds the supports. -/
theorem t0_run3 (c : Dev nD) (i : grid0.Coords) (arg2 : Memref sig .tc .vmem S4096x256 .f32) (harg2 : arg2.IsWhole) (arg3 : Memref sig .tc .vmem S4x256x256 .f32) (harg3 : arg3.IsWhole) (arg4 : Memref sig .tc .vmem S4x1x256 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S4096x256 .f32) (harg7 : arg7.IsWhole) (arg8 : Memref sig .tc .vmem S4096x256 .f32) (harg8 : arg8.IsWhole)
    (hc1 : k0_cond1 i = 1#1) (hc2 : ¬ k0_cond2 i = 1#1) (hc3 : k0_cond3 i = 1#1) (hc4 : ¬ k0_cond4 i = 1#1)
    (x0 : Vec F S4096x256 .f32) (x1 : Vec F S4x256x256 .f32) (x2 : Vec F S4x1x256 .f32) (x3 x4 : Vec F S1x512x2048 .f32) (x5 : Vec F S4096x256 .f32)
    (E : Set ℕ) (K : PUnit → sProp 𝕄) :
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ owns (c : Thread nD τ) arg7 fullShare
                    ((Rect.unit (s := S4096x256) (k0_off4 i) S512x256.size (k0_off4_inb i hc3)).overlay x5
                      (k0_pay3 (View.ld x3 (Rect.unit (s := S1x512x2048) ![0, 0, 0] S1x512x2048.size inb_S1x512x2048_S1x512x2048_0_0_0))
                        (View.ld (supOf x0 x1 x2 i hc1) (Rect.unit (s := S4096x256) ![0, 0] S2048x256.size inb_S4096x256_S2048x256_0_0))
                        (View.ld x4 (Rect.unit (s := S1x512x2048) ![0, 0, 0] S1x512x2048.size inb_S1x512x2048_S1x512x2048_0_0_0))
                        (View.ld (supOf x0 x1 x2 i hc1) (Rect.unit (s := S4096x256) ![2048, 0] S2048x256.size inb_S4096x256_S2048x256_2048_0))
                        (View.ld x5 (Rect.unit (s := S4096x256) (k0_off4 i) S512x256.size (k0_off4_inb i hc3)))))
                ∗ owns (c : Thread nD τ) arg8 fullShare (supOf x0 x1 x2 i hc1)) -∗ K ⟨⟩))
          ⊢ wp frame (wpE (defs₀ (F := F)) Variants.none c none) E (cc0__rgcn_body i arg2 harg2 arg3 harg3 arg4 harg4 arg5 harg5 arg6 harg6 arg7 harg7 arg8 harg8) K := by
  simp only [cc0__rgcn_body_eq_skeleton]; unfold cc0__rgcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [t0_read_writes_one, harg7.read_unread]
    sl_unfold_run_names
    unfold supOf
    simp only [View.readAt_eq_ld, harg2.read_unread, harg3.read_unread, harg4.read_unread, harg5.read_unread, harg6.read_unread,
      harg7.read_unread, t0_readCov_whole (S := S4096x256) _ t0_hz]
  · iexists _; isplitr; swap; · iexact HS
    ipureintro
    sl_unfold_run_names
    unfold supOf
    rw [t0_read_writes_whole (S := S4096x256) _ _ t0_hz]
    simp only [View.readAt_eq_ld, harg2.read_unread, harg3.read_unread, harg4.read_unread]

set_option maxHeartbeats 2000000 in
/-- The body run at a point of row tile 0 of relation 3, on whole memrefs: it computes the supports x · W[r]ᵀ + b[r] into the scratch
    (whatever the scratch held), then replaces its row tile of the output by tanh of what was there plus the adjacency row tile times the supports; the inputs are handed back as found, the scratch holds the supports. -/
theorem t0_run4 (c : Dev nD) (i : grid0.Coords) (arg2 : Memref sig .tc .vmem S4096x256 .f32) (harg2 : arg2.IsWhole) (arg3 : Memref sig .tc .vmem S4x256x256 .f32) (harg3 : arg3.IsWhole) (arg4 : Memref sig .tc .vmem S4x1x256 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S4096x256 .f32) (harg7 : arg7.IsWhole) (arg8 : Memref sig .tc .vmem S4096x256 .f32) (harg8 : arg8.IsWhole)
    (hc1 : k0_cond1 i = 1#1) (hc2 : ¬ k0_cond2 i = 1#1) (hc3 : ¬ k0_cond3 i = 1#1) (hc4 : k0_cond4 i = 1#1)
    (x0 : Vec F S4096x256 .f32) (x1 : Vec F S4x256x256 .f32) (x2 : Vec F S4x1x256 .f32) (x3 x4 : Vec F S1x512x2048 .f32) (x5 : Vec F S4096x256 .f32)
    (E : Set ℕ) (K : PUnit → sProp 𝕄) :
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ owns (c : Thread nD τ) arg7 fullShare
                    ((Rect.unit (s := S4096x256) (k0_off5 i) S512x256.size (k0_off5_inb i hc4)).overlay x5
                      (k0_pay4 (View.ld x3 (Rect.unit (s := S1x512x2048) ![0, 0, 0] S1x512x2048.size inb_S1x512x2048_S1x512x2048_0_0_0))
                        (View.ld (supOf x0 x1 x2 i hc1) (Rect.unit (s := S4096x256) ![0, 0] S2048x256.size inb_S4096x256_S2048x256_0_0))
                        (View.ld x4 (Rect.unit (s := S1x512x2048) ![0, 0, 0] S1x512x2048.size inb_S1x512x2048_S1x512x2048_0_0_0))
                        (View.ld (supOf x0 x1 x2 i hc1) (Rect.unit (s := S4096x256) ![2048, 0] S2048x256.size inb_S4096x256_S2048x256_2048_0))
                        (View.ld x5 (Rect.unit (s := S4096x256) (k0_off5 i) S512x256.size (k0_off5_inb i hc4)))))
                ∗ owns (c : Thread nD τ) arg8 fullShare (supOf x0 x1 x2 i hc1)) -∗ K ⟨⟩))
          ⊢ wp frame (wpE (defs₀ (F := F)) Variants.none c none) E (cc0__rgcn_body i arg2 harg2 arg3 harg3 arg4 harg4 arg5 harg5 arg6 harg6 arg7 harg7 arg8 harg8) K := by
  simp only [cc0__rgcn_body_eq_skeleton]; unfold cc0__rgcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [t0_read_writes_one, harg7.read_unread]
    sl_unfold_run_names
    unfold supOf
    simp only [View.readAt_eq_ld, harg2.read_unread, harg3.read_unread, harg4.read_unread, harg5.read_unread, harg6.read_unread,
      harg7.read_unread, t0_readCov_whole (S := S4096x256) _ t0_hz]
  · iexists _; isplitr; swap; · iexact HS
    ipureintro
    sl_unfold_run_names
    unfold supOf
    rw [t0_read_writes_whole (S := S4096x256) _ _ t0_hz]
    simp only [View.readAt_eq_ld, harg2.read_unread, harg3.read_unread, harg4.read_unread]

/-- At a point of row tile 0 the point is the first of its relation (8 · (t / 8) = t), so the scratch holds
    afterwards the supports computed at this very point, from the three resident blocks there. -/
theorem t0_scrAt (c : Dev nD) (t : Fin cfg0.N) (h0 : t.val % 8 = 0) :
    scrAt m c t.val t.isLt = (supOf (iblk m c 0 t) (iblk m c 1 t) (iblk m c 2 t) (grid0.coords t) ((hcond1 t).mpr h0)) :=
  supAt_congr m c (Fin.ext (by show 8 * (t.val / 8) = t.val; omega)) _ _

/-- What a point of row tile 0 of relation 0 makes of the output's buffer: its row tile overwritten by the contribution,
    the supports being this point's own. -/
theorem t0_outNew2 (c : Dev nD) (t : Fin cfg0.N) (h0 : t.val % 8 = 0) (h2 : k0_cond2 (grid0.coords t) = 1#1) (Y5 : Vec F S4096x256 .f32) :
    outNew m c t Y5 = (Rect.unit (s := S4096x256) (k0_off3 (grid0.coords t)) S512x256.size (k0_off3_inb _ h2)).overlay Y5
        (k0_pay2 (View.ld (iblk m c 3 t) (Rect.unit (s := S1x512x2048) ![0, 0, 0] S1x512x2048.size inb_S1x512x2048_S1x512x2048_0_0_0))
          (View.ld (supOf (iblk m c 0 t) (iblk m c 1 t) (iblk m c 2 t) (grid0.coords t) ((hcond1 t).mpr h0)) (Rect.unit (s := S4096x256) ![0, 0] S2048x256.size inb_S4096x256_S2048x256_0_0))
          (View.ld (iblk m c 4 t) (Rect.unit (s := S1x512x2048) ![0, 0, 0] S1x512x2048.size inb_S1x512x2048_S1x512x2048_0_0_0))
          (View.ld (supOf (iblk m c 0 t) (iblk m c 1 t) (iblk m c 2 t) (grid0.coords t) ((hcond1 t).mpr h0)) (Rect.unit (s := S4096x256) ![2048, 0] S2048x256.size inb_S4096x256_S2048x256_2048_0))) := by
  unfold outNew; rw [dif_pos h2]
  unfold adjLo adjHi supLo supHi; rw [t0_scrAt m c t h0]

/-- The same for relations 1 and 2: the row tile found plus the contribution. -/
theorem t0_outNew3 (c : Dev nD) (t : Fin cfg0.N) (h0 : t.val % 8 = 0) (h2 : ¬ k0_cond2 (grid0.coords t) = 1#1) (h3 : k0_cond3 (grid0.coords t) = 1#1) (Y5 : Vec F S4096x256 .f32) :
    outNew m c t Y5 = (Rect.unit (s := S4096x256) (k0_off4 (grid0.coords t)) S512x256.size (k0_off4_inb _ h3)).overlay Y5
        (k0_pay3 (View.ld (iblk m c 3 t) (Rect.unit (s := S1x512x2048) ![0, 0, 0] S1x512x2048.size inb_S1x512x2048_S1x512x2048_0_0_0))
          (View.ld (supOf (iblk m c 0 t) (iblk m c 1 t) (iblk m c 2 t) (grid0.coords t) ((hcond1 t).mpr h0)) (Rect.unit (s := S4096x256) ![0, 0] S2048x256.size inb_S4096x256_S2048x256_0_0))
          (View.ld (iblk m c 4 t) (Rect.unit (s := S1x512x2048) ![0, 0, 0] S1x512x2048.size inb_S1x512x2048_S1x512x2048_0_0_0))
          (View.ld (supOf (iblk m c 0 t) (iblk m c 1 t) (iblk m c 2 t) (grid0.coords t) ((hcond1 t).mpr h0)) (Rect.unit (s := S4096x256) ![2048, 0] S2048x256.size inb_S4096x256_S2048x256_2048_0))
          (View.ld Y5 (Rect.unit (s := S4096x256) (k0_off4 (grid0.coords t)) S512x256.size (k0_off4_inb _ h3)))) := by
  unfold outNew; rw [dif_neg h2, dif_pos h3]
  unfold adjLo adjHi supLo supHi; rw [t0_scrAt m c t h0]

/-- The same for relation 3: tanh of the row tile found plus the contribution. -/
theorem t0_outNew4 (c : Dev nD) (t : Fin cfg0.N) (h0 : t.val % 8 = 0) (h2 : ¬ k0_cond2 (grid0.coords t) = 1#1) (h3 : ¬ k0_cond3 (grid0.coords t) = 1#1) (h4 : k0_cond4 (grid0.coords t) = 1#1) (Y5 : Vec F S4096x256 .f32) :
    outNew m c t Y5 = (Rect.unit (s := S4096x256) (k0_off5 (grid0.coords t)) S512x256.size (k0_off5_inb _ h4)).overlay Y5
        (k0_pay4 (View.ld (iblk m c 3 t) (Rect.unit (s := S1x512x2048) ![0, 0, 0] S1x512x2048.size inb_S1x512x2048_S1x512x2048_0_0_0))
          (View.ld (supOf (iblk m c 0 t) (iblk m c 1 t) (iblk m c 2 t) (grid0.coords t) ((hcond1 t).mpr h0)) (Rect.unit (s := S4096x256) ![0, 0] S2048x256.size inb_S4096x256_S2048x256_0_0))
          (View.ld (iblk m c 4 t) (Rect.unit (s := S1x512x2048) ![0, 0, 0] S1x512x2048.size inb_S1x512x2048_S1x512x2048_0_0_0))
          (View.ld (supOf (iblk m c 0 t) (iblk m c 1 t) (iblk m c 2 t) (grid0.coords t) ((hcond1 t).mpr h0)) (Rect.unit (s := S4096x256) ![2048, 0] S2048x256.size inb_S4096x256_S2048x256_2048_0))
          (View.ld Y5 (Rect.unit (s := S4096x256) (k0_off5 (grid0.coords t)) S512x256.size (k0_off5_inb _ h4)))) := by
  unfold outNew; rw [dif_neg h2, dif_neg h3, dif_pos h4]
  unfold adjLo adjHi supLo supHi; rw [t0_scrAt m c t h0]

/-- Before any point the invariant holds the scratch at SOME contents: the class's own before the first point,
    the supports of the point before's relation afterwards. -/
theorem t0_phi_in (c : Dev nD) (t : Fin cfg0.N) :
    (rdat m c).Φ t.castSucc ⊢ iprop(iprop(∃ d, owns (c : Thread nD τ) scM fullShare d) ∗ (∃ r, prngReg c r)) := by
  rw [Phi_castSucc]
  by_cases hz : t.val = 0
  · rw [PhiS_zero m c _ _ hz, PhiA_eq]
  · rw [PhiS_pos m c _ _ hz]
    iintro ⟨HS, Hg⟩
    isplitl [HS]
    · iexists _; iexact HS
    iexact Hg

set_option maxHeartbeats 4000000 in
/-- The body at a point of row tile 0: it rewrites the scratch with the relation's supports, then
    updates its row tile of the output. -/
theorem sound_tile0 (c : Dev nD) (t : Fin cfg0.N) (h0 : t.val % 8 = 0)
    (Y : (w : Fin cfg0.W) → (cfg0.win w).block.Idx → Elt F (cfg0.win w).elt) (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  rw [e0, e1, e2, e3, e4]
  rw [show (rdat m c).owesAt () t.succ = (rdat m c).owesAt () t.castSucc from rfl]
  rw [show (rdat m c).Φ t.succ = PhiS m c (t.val + 1) t.isLt from rfl, PhiS_succ, t0_scrAt m c t h0]
  have hN : t.val < 32 := lt_of_lt_of_eq t.isLt N_0
  have hc1 : k0_cond1 (grid0.coords t) = 1#1 := (hcond1 t).mpr h0
  by_cases h2 : t.val / 8 = 0
  · -- relation 0
    have hc2 : k0_cond2 (grid0.coords t) = 1#1 := (hcond2 t).mpr h2
    have hc3 : ¬ k0_cond3 (grid0.coords t) = 1#1 := fun h => by have := (hcond3 t).mp h; omega
    have hc4 : ¬ k0_cond4 (grid0.coords t) = 1#1 := fun h => by have := (hcond4 t).mp h; omega
    iintro ⟨HΦ, Ho, H0, H1, H2, H3, H4, H5⟩
    ihave HΦ' := t0_phi_in m c t $$ HΦ
    icases HΦ' with ⟨HS, Hg⟩
    iapply (t0_run2 c (grid0.coords t) (ms0 t) (hs0 t) (ms1 t) (hs1 t) (ms2 t) (hs2 t) (ms3 t) (hs3 t) (ms4 t) (hs4 t) (ms5 t) (hs5 t)
      scM (Memref.isWhole_whole _) hc1 hc2 hc3 hc4 (iblk m c 0 t) (iblk m c 1 t) (iblk m c 2 t) (iblk m c 3 t) (iblk m c 4 t) (Y 5) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]
    · iexists _; isplitr; · ipureintro; exact (after0 m c t _ _).mpr rfl
      iexact H0
    isplitl [H1]
    · iexists _; isplitr; · ipureintro; exact (after1 m c t _ _).mpr rfl
      iexact H1
    isplitl [H2]
    · iexists _; isplitr; · ipureintro; exact (after2 m c t _ _).mpr rfl
      iexact H2
    isplitl [H3]
    · iexists _; isplitr; · ipureintro; exact (after3 m c t _ _).mpr rfl
      iexact H3
    isplitl [H4]
    · iexists _; isplitr; · ipureintro; exact (after4 m c t _ _).mpr rfl
      iexact H4
    iexists _; isplitr; swap; · iexact H5
    ipureintro; exact (after5 m c t _ _).mpr (t0_outNew2 m c t h0 hc2 (Y 5)).symm
  by_cases h3 : t.val / 8 = 1 ∨ t.val / 8 = 2
  · -- relations 1 and 2
    have hc2 : ¬ k0_cond2 (grid0.coords t) = 1#1 := fun h => h2 ((hcond2 t).mp h)
    have hc3 : k0_cond3 (grid0.coords t) = 1#1 := (hcond3 t).mpr h3
    have hc4 : ¬ k0_cond4 (grid0.coords t) = 1#1 := fun h => by have := (hcond4 t).mp h; omega
    iintro ⟨HΦ, Ho, H0, H1, H2, H3, H4, H5⟩
    ihave HΦ' := t0_phi_in m c t $$ HΦ
    icases HΦ' with ⟨HS, Hg⟩
    iapply (t0_run3 c (grid0.coords t) (ms0 t) (hs0 t) (ms1 t) (hs1 t) (ms2 t) (hs2 t) (ms3 t) (hs3 t) (ms4 t) (hs4 t) (ms5 t) (hs5 t)
      scM (Memref.isWhole_whole _) hc1 hc2 hc3 hc4 (iblk m c 0 t) (iblk m c 1 t) (iblk m c 2 t) (iblk m c 3 t) (iblk m c 4 t) (Y 5) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]
    · iexists _; isplitr; · ipureintro; exact (after0 m c t _ _).mpr rfl
      iexact H0
    isplitl [H1]
    · iexists _; isplitr; · ipureintro; exact (after1 m c t _ _).mpr rfl
      iexact H1
    isplitl [H2]
    · iexists _; isplitr; · ipureintro; exact (after2 m c t _ _).mpr rfl
      iexact H2
    isplitl [H3]
    · iexists _; isplitr; · ipureintro; exact (after3 m c t _ _).mpr rfl
      iexact H3
    isplitl [H4]
    · iexists _; isplitr; · ipureintro; exact (after4 m c t _ _).mpr rfl
      iexact H4
    iexists _; isplitr; swap; · iexact H5
    ipureintro; exact (after5 m c t _ _).mpr (t0_outNew3 m c t h0 hc2 hc3 (Y 5)).symm
  · -- relation 3
    have hc2 : ¬ k0_cond2 (grid0.coords t) = 1#1 := fun h => h2 ((hcond2 t).mp h)
    have hc3 : ¬ k0_cond3 (grid0.coords t) = 1#1 := fun h => h3 ((hcond3 t).mp h)
    have hc4 : k0_cond4 (grid0.coords t) = 1#1 := (hcond4 t).mpr (by omega)
    iintro ⟨HΦ, Ho, H0, H1, H2, H3, H4, H5⟩
    ihave HΦ' := t0_phi_in m c t $$ HΦ
    icases HΦ' with ⟨HS, Hg⟩
    iapply (t0_run4 c (grid0.coords t) (ms0 t) (hs0 t) (ms1 t) (hs1 t) (ms2 t) (hs2 t) (ms3 t) (hs3 t) (ms4 t) (hs4 t) (ms5 t) (hs5 t)
      scM (Memref.isWhole_whole _) hc1 hc2 hc3 hc4 (iblk m c 0 t) (iblk m c 1 t) (iblk m c 2 t) (iblk m c 3 t) (iblk m c 4 t) (Y 5) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]
    · iexists _; isplitr; · ipureintro; exact (after0 m c t _ _).mpr rfl
      iexact H0
    isplitl [H1]
    · iexists _; isplitr; · ipureintro; exact (after1 m c t _ _).mpr rfl
      iexact H1
    isplitl [H2]
    · iexists _; isplitr; · ipureintro; exact (after2 m c t _ _).mpr rfl
      iexact H2
    isplitl [H3]
    · iexists _; isplitr; · ipureintro; exact (after3 m c t _ _).mpr rfl
      iexact H3
    isplitl [H4]
    · iexists _; isplitr; · ipureintro; exact (after4 m c t _ _).mpr rfl
      iexact H4
    iexists _; isplitr; swap; · iexact H5
    ipureintro; exact (after5 m c t _ _).mpr (t0_outNew4 m c t h0 hc2 hc3 hc4 (Y 5)).symm

end Cert.KernelIdeal.Rgcn

end
-- ==== Proof.KI.BodyRest.lean ====
import proofs.«119680_g8435315769495_cont_9to1_m_1357_9_alg».proof.Proof.KI.BodyDefs

set_option maxRecDepth 16384

noncomputable section

namespace Cert.KernelIdeal.Rgcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-! The body at the grid points of the later row tiles (t % 8 ≠ 0): the first branch is not taken, so
the scratch is only read, and exactly one of the three branches on the relation stores into the point's
row tile of the output. One Hoare triple per branch, for any whole buffers, with what each buffer holds
afterwards in closed form; then the statement at a grid point from those three. -/

/-- One store through a rectangle, read back: the payload on the rectangle, the prior contents off it. -/
theorem rt_read_writes_one {sig : RefSig} {κ : Kind} {sp : Space} {s : Shape} {e : EltTy} {Val : EltTy → Type}
    (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ := r.exists_idx_of_mem hy
    exact (View.read_writes_cons_emb v f r w [] x).trans (Rect.overlay_emb r _ w x).symm
  · rw [View.read_writes_apply_of_forall_not_mem v f y _ (by
      intro p hp; rw [List.mem_singleton] at hp; subst hp; exact hy), Rect.overlay_of_not_mem _ _ _ hy]

set_option maxHeartbeats 2000000 in
/-- A point of relation 0 past its first row tile: the inputs and the scratch are left as found; the
    point's row tile of the output becomes the contribution (the two adjacency half-tiles times the two
    halves of the scratch), the other rows staying as found. -/
theorem rt_run2 (c : Dev nD) (i : grid0.Coords) (arg2 : Memref sig .tc .vmem S4096x256 .f32) (harg2 : arg2.IsWhole) (arg3 : Memref sig .tc .vmem S4x256x256 .f32) (harg3 : arg3.IsWhole) (arg4 : Memref sig .tc .vmem S4x1x256 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S4096x256 .f32) (harg7 : arg7.IsWhole) (arg8 : Memref sig .tc .vmem S4096x256 .f32) (harg8 : arg8.IsWhole)
    (hc1 : ¬ k0_cond1 i = 1#1) (hc2 : k0_cond2 i = 1#1) (hc3 : ¬ k0_cond3 i = 1#1) (hc4 : ¬ k0_cond4 i = 1#1)
    (x0 : Vec F S4096x256 .f32) (x1 : Vec F S4x256x256 .f32) (x2 : Vec F S4x1x256 .f32) (x3 x4 : Vec F S1x512x2048 .f32) (x5 xs : Vec F S4096x256 .f32)
    (E : Set ℕ) (K : PUnit → sProp 𝕄) :
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ owns (c : Thread nD τ) arg7 fullShare ((Rect.unit (s := S4096x256) (k0_off3 i) S512x256.size (k0_off3_inb i hc2)).overlay x5
                  (k0_pay2 (View.ld x3 (Rect.unit (s := S1x512x2048) ![0, 0, 0] S1x512x2048.size inb_S1x512x2048_S1x512x2048_0_0_0)) (View.ld xs (Rect.unit (s := S4096x256) ![0, 0] S2048x256.size inb_S4096x256_S2048x256_0_0))
                  (View.ld x4 (Rect.unit (s := S1x512x2048) ![0, 0, 0] S1x512x2048.size inb_S1x512x2048_S1x512x2048_0_0_0)) (View.ld xs (Rect.unit (s := S4096x256) ![2048, 0] S2048x256.size inb_S4096x256_S2048x256_2048_0))))
                ∗ owns (c : Thread nD τ) arg8 fullShare xs) -∗ K ⟨⟩))
          ⊢ wp frame (wpE (defs₀ (F := F)) Variants.none c none) E (cc0__rgcn_body i arg2 harg2 arg3 harg3 arg4 harg4 arg5 harg5 arg6 harg6 arg7 harg7 arg8 harg8) K := by
  simp only [cc0__rgcn_body_eq_skeleton]; unfold cc0__rgcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc1 | exact hc2 | exact hc3 | exact hc4)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [rt_read_writes_one, hf5]
    simp only [View.readAt_eq_ld, hf3, hf4, hf5, hfs]
  iexists _; isplitr; · ipureintro; exact hfs
  iexact HS

set_option maxHeartbeats 2000000 in
/-- A point of relation 1 or 2 past its first row tile: the point's row tile of the output becomes what
    it held plus the contribution. -/
theorem rt_run3 (c : Dev nD) (i : grid0.Coords) (arg2 : Memref sig .tc .vmem S4096x256 .f32) (harg2 : arg2.IsWhole) (arg3 : Memref sig .tc .vmem S4x256x256 .f32) (harg3 : arg3.IsWhole) (arg4 : Memref sig .tc .vmem S4x1x256 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S4096x256 .f32) (harg7 : arg7.IsWhole) (arg8 : Memref sig .tc .vmem S4096x256 .f32) (harg8 : arg8.IsWhole)
    (hc1 : ¬ k0_cond1 i = 1#1) (hc2 : ¬ k0_cond2 i = 1#1) (hc3 : k0_cond3 i = 1#1) (hc4 : ¬ k0_cond4 i = 1#1)
    (x0 : Vec F S4096x256 .f32) (x1 : Vec F S4x256x256 .f32) (x2 : Vec F S4x1x256 .f32) (x3 x4 : Vec F S1x512x2048 .f32) (x5 xs : Vec F S4096x256 .f32)
    (E : Set ℕ) (K : PUnit → sProp 𝕄) :
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ owns (c : Thread nD τ) arg7 fullShare ((Rect.unit (s := S4096x256) (k0_off4 i) S512x256.size (k0_off4_inb i hc3)).overlay x5
                  (k0_pay3 (View.ld x3 (Rect.unit (s := S1x512x2048) ![0, 0, 0] S1x512x2048.size inb_S1x512x2048_S1x512x2048_0_0_0)) (View.ld xs (Rect.unit (s := S4096x256) ![0, 0] S2048x256.size inb_S4096x256_S2048x256_0_0))
                  (View.ld x4 (Rect.unit (s := S1x512x2048) ![0, 0, 0] S1x512x2048.size inb_S1x512x2048_S1x512x2048_0_0_0)) (View.ld xs (Rect.unit (s := S4096x256) ![2048, 0] S2048x256.size inb_S4096x256_S2048x256_2048_0))
                    (View.ld x5 (Rect.unit (s := S4096x256) (k0_off4 i) S512x256.size (k0_off4_inb i hc3)))))
                ∗ owns (c : Thread nD τ) arg8 fullShare xs) -∗ K ⟨⟩))
          ⊢ wp frame (wpE (defs₀ (F := F)) Variants.none c none) E (cc0__rgcn_body i arg2 harg2 arg3 harg3 arg4 harg4 arg5 harg5 arg6 harg6 arg7 harg7 arg8 harg8) K := by
  simp only [cc0__rgcn_body_eq_skeleton]; unfold cc0__rgcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc1 | exact hc2 | exact hc3 | exact hc4)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [rt_read_writes_one, hf5]
    simp only [View.readAt_eq_ld, hf3, hf4, hf5, hfs]
  iexists _; isplitr; · ipureintro; exact hfs
  iexact HS

set_option maxHeartbeats 2000000 in
/-- A point of relation 3 past its first row tile: the point's row tile of the output becomes tanh of
    what it held plus the contribution. -/
theorem rt_run4 (c : Dev nD) (i : grid0.Coords) (arg2 : Memref sig .tc .vmem S4096x256 .f32) (harg2 : arg2.IsWhole) (arg3 : Memref sig .tc .vmem S4x256x256 .f32) (harg3 : arg3.IsWhole) (arg4 : Memref sig .tc .vmem S4x1x256 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S4096x256 .f32) (harg7 : arg7.IsWhole) (arg8 : Memref sig .tc .vmem S4096x256 .f32) (harg8 : arg8.IsWhole)
    (hc1 : ¬ k0_cond1 i = 1#1) (hc2 : ¬ k0_cond2 i = 1#1) (hc3 : ¬ k0_cond3 i = 1#1) (hc4 : k0_cond4 i = 1#1)
    (x0 : Vec F S4096x256 .f32) (x1 : Vec F S4x256x256 .f32) (x2 : Vec F S4x1x256 .f32) (x3 x4 : Vec F S1x512x2048 .f32) (x5 xs : Vec F S4096x256 .f32)
    (E : Set ℕ) (K : PUnit → sProp 𝕄) :
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ owns (c : Thread nD τ) arg7 fullShare ((Rect.unit (s := S4096x256) (k0_off5 i) S512x256.size (k0_off5_inb i hc4)).overlay x5
                  (k0_pay4 (View.ld x3 (Rect.unit (s := S1x512x2048) ![0, 0, 0] S1x512x2048.size inb_S1x512x2048_S1x512x2048_0_0_0)) (View.ld xs (Rect.unit (s := S4096x256) ![0, 0] S2048x256.size inb_S4096x256_S2048x256_0_0))
                  (View.ld x4 (Rect.unit (s := S1x512x2048) ![0, 0, 0] S1x512x2048.size inb_S1x512x2048_S1x512x2048_0_0_0)) (View.ld xs (Rect.unit (s := S4096x256) ![2048, 0] S2048x256.size inb_S4096x256_S2048x256_2048_0))
                    (View.ld x5 (Rect.unit (s := S4096x256) (k0_off5 i) S512x256.size (k0_off5_inb i hc4)))))
                ∗ owns (c : Thread nD τ) arg8 fullShare xs) -∗ K ⟨⟩))
          ⊢ wp frame (wpE (defs₀ (F := F)) Variants.none c none) E (cc0__rgcn_body i arg2 harg2 arg3 harg3 arg4 harg4 arg5 harg5 arg6 harg6 arg7 harg7 arg8 harg8) K := by
  simp only [cc0__rgcn_body_eq_skeleton]; unfold cc0__rgcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc1 | exact hc2 | exact hc3 | exact hc4)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [rt_read_writes_one, hf5]
    simp only [View.readAt_eq_ld, hf3, hf4, hf5, hfs]
  iexists _; isplitr; · ipureintro; exact hfs
  iexact HS

variable (m : (ℓ : Loc nD τ sig) → Buf (Elt F) ℓ) (ρ : Dev nD → PrngReg)

/-- Within a relation the scratch is not rewritten: after a point of a later row tile it holds what it held
    after the point before, the supports computed at the relation's first point
    (8 * ((t - 1) / 8) = 8 * (t / 8) when 8 does not divide t). -/
theorem rt_scr_eq (c : Dev nD) (t : Fin cfg0.N) (h0 : ¬ t.val % 8 = 0) (h : t.val - 1 < cfg0.N) :
    scrAt m c (t.val - 1) h = scrAt m c t.val t.isLt := by
  unfold scrAt
  exact supAt_congr m c (Fin.ext (by simp only []; omega)) _ _

/-- The body at a point of a later row tile: the scratch already holds the relation's supports and is
    only read; the point updates its row tile of the output. -/
theorem sound_rest (c : Dev nD) (t : Fin cfg0.N) (h0 : ¬ t.val % 8 = 0)
    (Y : (w : Fin cfg0.W) → (cfg0.win w).block.Idx → Elt F (cfg0.win w).elt) (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  -- the two adjacency windows hold their blocks at the point
  have e3 := finds3 m c t (Y 3) (hY 3)
  have e4 := finds4 m c t (Y 4) (hY 4)
  have hN : t.val < 32 := lt_of_lt_of_eq t.isLt N_0
  have hz : t.val ≠ 0 := fun h => h0 (by rw [h])
  have hc1 : ¬ k0_cond1 (grid0.coords t) = 1#1 := fun h => h0 ((hcond1 t).mp h)
  -- nothing is owed before or after; the invariant on both sides is the scratch at the relation's supports
  rw [show (rdat m c).owesAt () t.succ = (rdat m c).owesAt () t.castSucc from rfl]
  rw [show (rdat m c).Φ t.succ = PhiS m c (t.val + 1) t.isLt from rfl, PhiS_succ]
  rw [Phi_castSucc, PhiS_pos m c _ _ hz, rt_scr_eq m c t h0]
  by_cases h2 : t.val / 8 = 0
  · -- relation 0: the row tile becomes the contribution

    have hc2 : k0_cond2 (grid0.coords t) = 1#1 := (hcond2 t).mpr h2
    have hc3 : ¬ k0_cond3 (grid0.coords t) = 1#1 := fun h => by have := (hcond3 t).mp h; omega
    have hc4 : ¬ k0_cond4 (grid0.coords t) = 1#1 := fun h => by have := (hcond4 t).mp h; omega
    iintro ⟨⟨HS, Hg⟩, Ho, H0, H1, H2, H3, H4, H5⟩
    iapply (rt_run2 c (grid0.coords t) _ _ _ _ _ _ _ _ _ _ _ _ _ _ hc1 hc2 hc3 hc4 (Y 0) (Y 1) (Y 2) (Y 3) (Y 4) (Y 5)
      (scrAt m c t.val t.isLt) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]
    · iexists _; isplitr; · ipureintro; exact (after0 m c t _ _).mpr rfl
      iexact H0
    isplitl [H1]
    · iexists _; isplitr; · ipureintro; exact (after1 m c t _ _).mpr rfl
      iexact H1
    isplitl [H2]
    · iexists _; isplitr; · ipureintro; exact (after2 m c t _ _).mpr rfl
      iexact H2
    isplitl [H3]
    · iexists _; isplitr; · ipureintro; exact (after3 m c t _ _).mpr rfl
      iexact H3
    isplitl [H4]
    · iexists _; isplitr; · ipureintro; exact (after4 m c t _ _).mpr rfl
      iexact H4
    iexists _; isplitr
    swap; · iexact H5
    ipureintro; refine (after5 m c t _ _).mpr ?_
    unfold outNew; rw [dif_pos hc2]; unfold adjLo adjHi supLo supHi; rw [← e3, ← e4]; rfl
  by_cases h3 : t.val / 8 = 1 ∨ t.val / 8 = 2
  · -- relations 1 and 2: what the row tile held plus the contribution

    have hc2 : ¬ k0_cond2 (grid0.coords t) = 1#1 := fun h => h2 ((hcond2 t).mp h)
    have hc3 : k0_cond3 (grid0.coords t) = 1#1 := (hcond3 t).mpr h3
    have hc4 : ¬ k0_cond4 (grid0.coords t) = 1#1 := fun h => by have := (hcond4 t).mp h; omega
    iintro ⟨⟨HS, Hg⟩, Ho, H0, H1, H2, H3, H4, H5⟩
    iapply (rt_run3 c (grid0.coords t) _ _ _ _ _ _ _ _ _ _ _ _ _ _ hc1 hc2 hc3 hc4 (Y 0) (Y 1) (Y 2) (Y 3) (Y 4) (Y 5)
      (scrAt m c t.val t.isLt) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]
    · iexists _; isplitr; · ipureintro; exact (after0 m c t _ _).mpr rfl
      iexact H0
    isplitl [H1]
    · iexists _; isplitr; · ipureintro; exact (after1 m c t _ _).mpr rfl
      iexact H1
    isplitl [H2]
    · iexists _; isplitr; · ipureintro; exact (after2 m c t _ _).mpr rfl
      iexact H2
    isplitl [H3]
    · iexists _; isplitr; · ipureintro; exact (after3 m c t _ _).mpr rfl
      iexact H3
    isplitl [H4]
    · iexists _; isplitr; · ipureintro; exact (after4 m c t _ _).mpr rfl
      iexact H4
    iexists _; isplitr
    swap; · iexact H5
    ipureintro; refine (after5 m c t _ _).mpr ?_
    unfold outNew; rw [dif_neg hc2, dif_pos hc3]; unfold adjLo adjHi supLo supHi; rw [← e3, ← e4]; rfl
  · -- relation 3: tanh of that sum
    have h4 : t.val / 8 = 3 := by omega

    have hc2 : ¬ k0_cond2 (grid0.coords t) = 1#1 := fun h => h2 ((hcond2 t).mp h)
    have hc3 : ¬ k0_cond3 (grid0.coords t) = 1#1 := fun h => h3 ((hcond3 t).mp h)
    have hc4 : k0_cond4 (grid0.coords t) = 1#1 := (hcond4 t).mpr h4
    iintro ⟨⟨HS, Hg⟩, Ho, H0, H1, H2, H3, H4, H5⟩
    iapply (rt_run4 c (grid0.coords t) _ _ _ _ _ _ _ _ _ _ _ _ _ _ hc1 hc2 hc3 hc4 (Y 0) (Y 1) (Y 2) (Y 3) (Y 4) (Y 5)
      (scrAt m c t.val t.isLt) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]
    · iexists _; isplitr; · ipureintro; exact (after0 m c t _ _).mpr rfl
      iexact H0
    isplitl [H1]
    · iexists _; isplitr; · ipureintro; exact (after1 m c t _ _).mpr rfl
      iexact H1
    isplitl [H2]
    · iexists _; isplitr; · ipureintro; exact (after2 m c t _ _).mpr rfl
      iexact H2
    isplitl [H3]
    · iexists _; isplitr; · ipureintro; exact (after3 m c t _ _).mpr rfl
      iexact H3
    isplitl [H4]
    · iexists _; isplitr; · ipureintro; exact (after4 m c t _ _).mpr rfl
      iexact H4
    iexists _; isplitr
    swap; · iexact H5
    ipureintro; refine (after5 m c t _ _).mpr ?_
    unfold outNew; rw [dif_neg hc2, dif_neg hc3, dif_pos hc4]; unfold adjLo adjHi supLo supHi; rw [← e3, ← e4]; rfl

end Cert.KernelIdeal.Rgcn

end
-- ==== Proof.KI.Body.lean ====
import proofs.«119680_g8435315769495_cont_9to1_m_1357_9_alg».proof.Proof.KI.BodyTile0
import proofs.«119680_g8435315769495_cont_9to1_m_1357_9_alg».proof.Proof.KI.BodyRest

set_option maxRecDepth 16384

noncomputable section

namespace Cert.KernelIdeal.Rgcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body obligation at every point: the two kinds of point. -/
theorem body_obligation (c : Dev nD) : (rdat (F := F) m c).BodyObligation (defs₀ (F := F)) Variants.none () Set.univ :=
  body_obligation_of m (fun c t Y hY => by
    by_cases h0 : t.val % 8 = 0
    · exact sound_tile0 m c t h0 Y hY
    · exact sound_rest m c t h0 Y hY) c

end Cert.KernelIdeal.Rgcn

end
-- ==== Proof.KI.Launch.lean ====
import proofs.«119680_g8435315769495_cont_9to1_m_1357_9_alg».proof.Proof.KI.Data

set_option maxRecDepth 16384

noncomputable section

namespace Cert.KernelIdeal.Rgcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-! The launch: from the body obligation to the run of @main. The two windows on the adjacency array
split its one buffer's full share into halves; everything else is the launch of a kernel that
carries its scratch between grid points: the scratch and the generator register enter the region
invariant at anything and leave it forgotten, the bias argument bypasses the region. -/

open Idealize.ShloMosaic.Pipeline (cells launchToks arrBufs unscopedRestP unscopedRest scopedRest ownSems0_none restRefs restRefsP)

variable (m : (ℓ : Loc nD τ sig) → Buf (Elt F) ℓ) (ρ : Dev nD → PrngReg)

/-- The buffers behind the windows' arrays are the pipeline's arrays at entry: the adjacency buffer's full
    share is dealt to its two windows in halves. -/
theorem hsplit (c : Dev nD) :
    (arrBufs (Ix := Unit) (Name := ℕ) (U := UR sig nD τ) (Lvl := ℕ) spec0 c (V m c) : sProp 𝕄) ⊢ (rdat m c).arrays (rdat m c).A := by
  have e : (arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg2) ↦{fullShare} V m c main_arg2)
          ∗ (((c.tc : Thread nD τ).loc main_call0_v0) ↦{fullShare} V m c main_call0_v0) ∗ (((c.tc : Thread nD τ).loc main_arg1) ↦{fullShare} V m c main_arg1)
          ∗ (((c.tc : Thread nD τ).loc main_v0) ↦{fullShare} V m c main_v0)) := by
    unfold arrBufs
    exact bigSep_eq_bigSepL_of_eq [main_arg0, main_arg2, main_call0_v0, main_arg1, main_v0] (by decide) (by decide)
      (fun b => (((c.tc : Thread nD τ).loc b) ↦{fullShare} V m c b : sProp 𝕄))
  rw [e]
  unfold RDat.arrays
  rw [bigSep_W0]
  have s0 : (rdat m c).share 0 = fullShare := rfl
  have s1 : (rdat m c).share 1 = fullShare := rfl
  have s2 : (rdat m c).share 2 = fullShare := rfl
  have s3 : (rdat m c).share 3 = fullShare.left := rfl
  have s4 : (rdat m c).share 4 = fullShare.right := rfl
  have s5 : (rdat m c).share 5 = fullShare := rfl
  rw [s0, s1, s2, s3, s4, s5, (arr_whole0 0).set_eq_univ, (arr_whole0 1).set_eq_univ, (arr_whole0 2).set_eq_univ,
    (arr_whole0 3).set_eq_univ, (arr_whole0 5).set_eq_univ]
  simp only [A_eq]
  iintro ⟨H0, H2, Hb, H1, Hv⟩
  ihave H1 := (pointsTo_share (PosShare.mem_left_op_right fullShare)).1 $$ H1
  icases H1 with ⟨H1l, H1r⟩
  isplitl [H0]; · iexact H0
  isplitl [H2]; · iexact H2
  isplitl [Hb]; · iexact Hb
  isplitl [H1l]; · iexact H1l
  isplitl [H1r]; · iexact H1r
  iexact Hv

/-- The pipeline prefetches nothing: its one admissible table contents. -/
abbrev adm₀ : (q : Fin 1) → (pcfgs (F := F) q).Adm := fun q => (cfgs q).toPCfg_adm

set_option backward.isDefEq.respectTransparency.types false in
/-- From the body obligation: every weakly fair execution of @main terminates, each array of the pipeline ends at
    contents its relation admits after every write-back, and every buffer the region bypasses ends as the region
    found it. -/
theorem run_of_body (hbody : ∀ c, (rdat (F := F) m c).BodyObligation (defs₀ (F := F)) Variants.none () Set.univ) :
    θ_run defs (onTc (τ := τ) (main (F := F))) (s₀ m ρ) (Pipeline.RDat.FramePost cfg0 (rdat m) (V m)) := by
  classical
  have hinj : Function.Injective (cellOf (nD := nD) (τ := τ) (Pipeline.pin (pcfgs (F := F)) (adm₀ (F := F)))) := cellOf_inj
  exact Pipeline.RDat.θ_run_region_pf (pcfgs (F := F)) (adm₀ (F := F)) (Pipeline.RDat.familyOf (pcfgs (F := F)) (adm₀ (F := F)) 0 (rdat m)) () hinj 0 winFacts₀0
    (Pipeline.OwnSemFacts.none spec0) (Pipeline.PreFacts.none spec0) emb₁ defs₀ Variants.none m ρ main
    (fun c => by rw [Pipeline.RDat.familyOf_self]; exact hbody c)
    block_pos0 arr_whole0 stage_whole0 (fun c t => by rw [Pipeline.RDat.familyOf_self]; rfl)
    (G := fun _ => iprop(emp)) (u₀ := initOf (cells (Pipeline.pin (pcfgs (F := F)) (adm₀ (F := F))) hinj) (launchToks (Pipeline.pin (pcfgs (F := F)) (adm₀ (F := F))) hinj))
    (hu₀ := by
      iintro Hu; imodintro
      isplitl [Hu]; · iapply (show (ownU _ : sProp 𝕄) ⊢ BI.own (emb₁ (initOf (cells (Pipeline.pin (pcfgs (F := F)) (adm₀ (F := F))) hinj) (launchToks (Pipeline.pin (pcfgs (F := F)) (adm₀ (F := F))) hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by rw [Pipeline.RDat.familyOf_self]; exact hsplit m c)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) ((pcfgs (F := F)) 0).pre spec0 c (V m c))
    (hX := fun c => by
      iintro ⟨HU, -, -, -, Hp, -⟩; imodintro
      isplitl [Hp]; · iexists _; iexact Hp
      iexact HU)
    (hin := fun c => by
      rw [Pipeline.RDat.familyOf_self]
      rw [show (rdat m c).Φ 0 = PhiS m c 0 (Nat.zero_le _) from rfl, PhiS_zero m c 0 _ rfl]
      unfold Pipeline.ΦA; iintro ⟨Hp, -, Hr⟩
      isplitl [Hr] <;> iassumption)
    (hout := fun c => by
      rw [Pipeline.RDat.familyOf_self]
      rw [show (rdat m c).Φ (Fin.last cfg0.N) = PhiS m c (Fin.last cfg0.N).val (Nat.le_of_lt_succ (Fin.last cfg0.N).isLt) from rfl,
        PhiS_pos m c _ _ (by rw [Fin.val_last]; have : cfg0.N = 32 := N_0; omega), ownSems0_none]
      rw [show (scopedRest (Ix := Unit) (Name := ℕ) (U := UR sig nD τ) (Lvl := ℕ) (Val := Elt F) spec0 c : sProp 𝕄)
          = iprop(∃ d, owns (c : Thread nD τ) scM fullShare d) from by rw [scopedRest0_eq]; simp only [scM, owns_whole]; rfl]
      iintro ⟨HS, Hp⟩
      isplitl [Hp]; · iexact Hp
      isplitr; · iempintro
      iexists _; iexact HS)
    (QY := fun c s => ∀ b ∈ restRefsP sig ((pcfgs (F := F)) 0).pre spec0, s.mem ((c.tc : Thread nD τ).loc b) = V m c b)
    (hY := fun c s' => by
      iintro ⟨-, HU, HSI⟩
      unfold unscopedRestP
      imodintro
      iapply (pointsTo_read_all (restRefsP sig ((pcfgs (F := F)) 0).pre spec0) (fun b => (c.tc : Thread nD τ).loc b) (V m c) s')
      isplitl [HU] <;> iassumption)
    (hQ := fun s h c => ⟨fun w => by simpa only [Pipeline.RDat.familyOf_self] using (h c).1 w,
      Pipeline.rest_of_restP ((pcfgs (F := F)) 0).pre spec0 ((adm₀ 0).1) c (V m c) s (fun k => k.elim0) (h c).2.1 (h c).2.2⟩)

end Cert.KernelIdeal.Rgcn

end
-- ==== Proof.KI.Run.lean ====
import proofs.«119680_g8435315769495_cont_9to1_m_1357_9_alg».proof.Proof.KI.Body
import proofs.«119680_g8435315769495_cont_9to1_m_1357_9_alg».proof.Proof.KI.Launch

set_option maxRecDepth 16384

noncomputable section

namespace Cert.KernelIdeal.Rgcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of @main: the launch at the body obligation. -/
theorem run_main : θ_run defs (onTc (τ := τ) (main (F := F))) (s₀ m ρ) (Pipeline.RDat.FramePost cfg0 (rdat m) (V m)) :=
  run_of_body m ρ (body_obligation m)

end Cert.KernelIdeal.Rgcn

end
-- ==== Proof.Spec.lean ====
import Idealize.ShloMosaic.PureOps.Ideal
import Idealize.ShloMosaic.Lib.ValueIdx

/-! The relational graph-convolution layer as one function of its four argument arrays, over the
extended reals: for node features x[n,d], adjacency adjs[r,p,n], weights W[r,o,d] and biases b[r,o],

  supports r n o = (Σ_d x[n,d] · W[r,o,d]) + b[r,o]
  layer p o      = tanh (Σ_r Σ_n adjs[r,p,n] · supports r n o).

Both programs compute this function; each side's module proves its own result equal to it. -/

noncomputable section

namespace Cert.RgcnSpec

open Idealize.ShloMosaic Idealize.ShloMosaic.ValueIdx
open scoped BigOperators

abbrev SX : Shape := ⟨2, ![4096, 256]⟩
abbrev SA : Shape := ⟨3, ![4, 4096, 4096]⟩
abbrev SW : Shape := ⟨3, ![4, 256, 256]⟩
abbrev SB : Shape := ⟨2, ![4, 256]⟩

/-- The linear layer of relation `r` applied to node `n`, output feature `o`. -/
def supports (x : SX.Idx → EReal) (W : SW.Idx → EReal) (b : SB.Idx → EReal) (r : Fin 4) (n : Fin 4096) (o : Fin 256) : EReal :=
  (∑ d : Fin 256, x (ix2 n d) * W (ix3 r o d)) + b (ix2 r o)

/-- What relation `r` contributes to row `p`, feature `o`: its adjacency row against its supports. -/
def contrib (x : SX.Idx → EReal) (adjs : SA.Idx → EReal) (W : SW.Idx → EReal) (b : SB.Idx → EReal) (r : Fin 4) (p : Fin 4096) (o : Fin 256) : EReal :=
  ∑ n : Fin 4096, adjs (ix3 r p n) * supports x W b r n o

/-- The layer at row `p`, feature `o`. -/
def layerAt (x : SX.Idx → EReal) (adjs : SA.Idx → EReal) (W : SW.Idx → EReal) (b : SB.Idx → EReal) (p : Fin 4096) (o : Fin 256) : EReal :=
  Ideal.tanh (∑ r : Fin 4, contrib x adjs W b r p o)

/-- The layer as an array. -/
def layer (x : SX.Idx → EReal) (adjs : SA.Idx → EReal) (W : SW.Idx → EReal) (b : SB.Idx → EReal) : SX.Idx → EReal :=
  fun j => layerAt x adjs W b (j 0) (j 1)

theorem layer_ix2 (x : SX.Idx → EReal) (adjs : SA.Idx → EReal) (W : SW.Idx → EReal) (b : SB.Idx → EReal) (p : Fin 4096) (o : Fin 256) :
    layer x adjs W b (ix2 p o) = layerAt x adjs W b p o := rfl

end Cert.RgcnSpec

end
-- ==== Proof.KI.OutValue.lean ====
import proofs.«119680_g8435315769495_cont_9to1_m_1357_9_alg».proof.Proof.KI.Data
import proofs.«119680_g8435315769495_cont_9to1_m_1357_9_alg».proof.Proof.Spec
import Idealize.ShloMosaic.Lib.Pipeline.Value
import Idealize.ShloMosaic.Lib.Pipeline.Cells
import Idealize.ShloMosaic.Lib.ValueIdx
import Idealize.ShloMosaic.Lib.ValueLayout
import Idealize.ShloMosaic.PureOps.Ideal.Laws

/-! The kernel's result as the layer of its four argument arrays, over the extended reals.

Grid point t is relation t / 8, row tile t % 8. The scratch holds the supports of the current relation,
x · W[r]ᵀ + b[r]; the point adds to rows [512 (t % 8), +512) of the output's buffer the adjacency rows of relation
t / 8 against those supports (relation 0 writes the contribution, relations 1 and 2 add it to what is there,
relation 3 adds it and takes tanh). The buffer is the whole result array, never fetched and written back once,
after the last point. So by induction over the points a row whose tile has been rewritten k + 1 times holds the sum
of the first k + 1 contributions, and after the last point every row holds tanh of the four-term sum: the layer.

In order: the two matrix products, the layout operations and the four payloads read at an index; each window's
block read off its array; the supports and a tile's contribution; a point's overlay of the buffer; the invariant
and its step; the chain of what the body finds and leaves; the array after the write-back. -/

set_option maxRecDepth 16384

noncomputable section

namespace Cert.KernelIdeal.Rgcn

open Idealize.ShloMosaic Idealize.ShloMosaic.TcCoe Idealize.ShloMosaic.ValueIdx
open Idealize.SL Idealize.SL.Sem
open Idealize.ShloMosaic.Pipeline (Dat RDat Cfg Window)
open Cert.KernelIdeal Cert.KernelIdeal.Gen
open scoped BigOperators

variable (m : (ℓ : Loc nD τ sig) → Buf (Elt Ideal) ℓ)

/-! ## The two matrix products at an index

Each contracts one axis; the contraction index is re-indexed by its one coordinate. -/

theorem lhsA_0 (i : S4096x256.Idx) (q : dot_S4096x256_S256x256_S4096x256_1_1_0_0_n_n.contr.Idx) :
    (dot_S4096x256_S256x256_S4096x256_1_1_0_0_n_n.lhsIdx i q 0).val = (i 0).val := by
  unfold DotDims.lhsIdx
  rw [dif_neg (show ¬(0 : Fin S4096x256.rank) ∈ dot_S4096x256_S256x256_S4096x256_1_1_0_0_n_n.lhsBatch by decide), dif_pos (show (0 : Fin S4096x256.rank) ∈ dot_S4096x256_S256x256_S4096x256_1_1_0_0_n_n.lhsNonContracting by decide)]
  rfl
theorem lhsA_1 (i : S4096x256.Idx) (q : dot_S4096x256_S256x256_S4096x256_1_1_0_0_n_n.contr.Idx) :
    (dot_S4096x256_S256x256_S4096x256_1_1_0_0_n_n.lhsIdx i q 1).val = (q ⟨0, by decide⟩).val :=
  dot_S4096x256_S256x256_S4096x256_1_1_0_0_n_n.lhsIdx_val_of_single rfl i q
theorem rhsA_0 (i : S4096x256.Idx) (q : dot_S4096x256_S256x256_S4096x256_1_1_0_0_n_n.contr.Idx) :
    (dot_S4096x256_S256x256_S4096x256_1_1_0_0_n_n.rhsIdx i q 0).val = (i 1).val := by
  unfold DotDims.rhsIdx
  rw [dif_neg (show ¬(0 : Fin S256x256.rank) ∈ dot_S4096x256_S256x256_S4096x256_1_1_0_0_n_n.rhsBatch by decide), dif_pos (show (0 : Fin S256x256.rank) ∈ dot_S4096x256_S256x256_S4096x256_1_1_0_0_n_n.rhsNonContracting by decide)]
  rfl
theorem rhsA_1 (i : S4096x256.Idx) (q : dot_S4096x256_S256x256_S4096x256_1_1_0_0_n_n.contr.Idx) :
    (dot_S4096x256_S256x256_S4096x256_1_1_0_0_n_n.rhsIdx i q 1).val = (q ⟨0, by decide⟩).val :=
  dot_S4096x256_S256x256_S4096x256_1_1_0_0_n_n.rhsIdx_val_of_single rfl i q

/-- Features against a weight matrix's rows: entry (n, o) is Σ_d a[n,d] · w[o,d]. -/
theorem mmA_apply (a : FVec Ideal S4096x256 .f32) (w : FVec Ideal S256x256 .f32) (n : Fin 4096) (o : Fin 256) :
    matmul dot_S4096x256_S256x256_S4096x256_1_1_0_0_n_n none a w (constant (F := Ideal) S4096x256 .f32 0x00000000#32) (ix2 n o)
      = ∑ d : Fin 256, a (ix2 n d) * w (ix2 o d) := by
  simp only [matmul]
  rw [Ideal.matmul_constant_zero_apply, ← Equiv.sum_comp (contrEquiv1 dot_S4096x256_S256x256_S4096x256_1_1_0_0_n_n 256 rfl rfl).symm]
  refine Finset.sum_congr rfl fun k _ => ?_
  have hk := contrEquiv1_symm_val dot_S4096x256_S256x256_S4096x256_1_1_0_0_n_n 256 rfl rfl k
  have el : dot_S4096x256_S256x256_S4096x256_1_1_0_0_n_n.lhsIdx (ix2 n o) ((contrEquiv1 dot_S4096x256_S256x256_S4096x256_1_1_0_0_n_n 256 rfl rfl).symm k) = ix2 n k := funext fun b => Fin.ext (by
    match b with
    | ⟨0, _⟩ => exact lhsA_0 _ _
    | ⟨1, _⟩ => exact (lhsA_1 _ _).trans hk)
  have er : dot_S4096x256_S256x256_S4096x256_1_1_0_0_n_n.rhsIdx (ix2 n o) ((contrEquiv1 dot_S4096x256_S256x256_S4096x256_1_1_0_0_n_n 256 rfl rfl).symm k) = ix2 o k := funext fun b => Fin.ext (by
    match b with
    | ⟨0, _⟩ => exact rhsA_0 _ _
    | ⟨1, _⟩ => exact (rhsA_1 _ _).trans hk)
  rw [el, er]

theorem lhsB_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhsB_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhsB_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhsB_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- An adjacency half-tile against half the supports: entry (p, o) is Σ_k a[p,k] · s[k,o]. -/
theorem mmB_apply (a : FVec Ideal S512x2048 .f32) (s : FVec Ideal S2048x256 .f32) (p : Fin 512) (o : Fin 256) :
    matmul dot_S512x2048_S2048x256_S512x256_1_0_0_1_n_n none a s (constant (F := Ideal) S512x256 .f32 0x00000000#32) (ix2 p o)
      = ∑ k : Fin 2048, a (ix2 p k) * s (ix2 k o) := by
  simp only [matmul]
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 p o) ((contrEquiv1 dot_S512x2048_S2048x256_S512x256_1_0_0_1_n_n 2048 rfl rfl).symm k) = ix2 p k := funext fun b => Fin.ext (by
    match b with
    | ⟨0, _⟩ => exact lhsB_0 _ _
    | ⟨1, _⟩ => exact (lhsB_1 _ _).trans hk)
  have er : dot_S512x2048_S2048x256_S512x256_1_0_0_1_n_n.rhsIdx (ix2 p o) ((contrEquiv1 dot_S512x2048_S2048x256_S512x256_1_0_0_1_n_n 2048 rfl rfl).symm k) = ix2 k o := funext fun b => Fin.ext (by
    match b with
    | ⟨0, _⟩ => exact (rhsB_0 _ _).trans hk
    | ⟨1, _⟩ => exact rhsB_1 _ _)
  rw [el, er]

/-! ## The layout operations of the payloads at an index -/

/-- A [1,256,256] block read as [256,256]. -/
theorem castW_apply {α : Type} (w : S1x256x256.Idx → α) (o d : Fin 256) :
    shapeCast S256x256 w shapeCasts_S1x256x256_S256x256 (ix2 o d) = w (ix3 0 o d) :=
  shapeCast_apply w _ (ix2 o d) (ix3 0 o d) (by
    rw [Shape.rowMajor_val_three, Shape.rowMajor_val_two]
    show ((0 : ℕ) * 256 + o.val) * 256 + d.val = o.val * 256 + d.val
    omega)

/-- A [1,1,256] block read as [1,256]. -/
theorem castB_apply {α : Type} (b : S1x1x256.Idx → α) (o : Fin 256) :
    shapeCast S1x256 b shapeCasts_S1x1x256_S1x256 (ix2 0 o) = b (ix3 0 0 o) :=
  shapeCast_apply b _ (ix2 0 o) (ix3 0 0 o) (by
    rw [Shape.rowMajor_val_three, Shape.rowMajor_val_two]
    show ((0 : ℕ) * 1 + 0) * 256 + o.val = 0 * 256 + o.val
    omega)

/-- A [1,512,2048] block read as [512,2048]. -/
theorem castA_apply {α : Type} (a : S1x512x2048.Idx → α) (p : Fin 512) (k : Fin 2048) :
    shapeCast S512x2048 a shapeCasts_S1x512x2048_S512x2048 (ix2 p k) = a (ix3 0 p k) :=
  shapeCast_apply a _ (ix2 p k) (ix3 0 p k) (by
    rw [Shape.rowMajor_val_three, Shape.rowMajor_val_two]
    show ((0 : ℕ) * 512 + p.val) * 2048 + k.val = p.val * 2048 + k.val
    omega)

/-- A [1,256] row repeated down 4096 rows. -/
theorem bcast_apply {α : Type} (b : S1x256.Idx → α) (n : Fin 4096) (o : Fin 256) :
    broadcastTo S4096x256 b broadcasts_S1x256_S4096x256 (ix2 n o) = b (ix2 0 o) :=
  broadcastTo_apply b _ (ix2 n o) (ix2 0 o) (fun a => match a with
    | ⟨0, _⟩ => by show (0 : ℕ) = if (1 : ℕ) = 1 then 0 else n.val; rw [if_pos rfl]
    | ⟨1, _⟩ => by show o.val = if (256 : ℕ) = 1 then 0 else o.val; rw [if_neg (by decide)])

/-! ## The four payloads at an index -/

/-- The supports payload: features against the relation's weight rows, plus the relation's bias. -/
theorem pay1_apply (x0 : Vec Ideal S4096x256 .f32) (w : Vec Ideal S1x256x256 .f32) (bb : Vec Ideal S1x1x256 .f32)
    (n : Fin 4096) (o : Fin 256) :
    k0_pay1 x0 w bb (ix2 n o) = (∑ d : Fin 256, x0 (ix2 n d) * w (ix3 0 o d)) + bb (ix3 0 0 o) := by
  unfold k0_pay1
  rw [shapeCast_self, addf_apply, mmA_apply, bcast_apply, castB_apply]
  refine congrArg (· + _) (Finset.sum_congr rfl fun d _ => ?_)
  rw [castW_apply]

/-- The tile's contribution: the two adjacency half-tiles against the two halves of the supports. -/
theorem pay2_apply (a0 : Vec Ideal S1x512x2048 .f32) (s0 : Vec Ideal S2048x256 .f32) (a1 : Vec Ideal S1x512x2048 .f32)
    (s1 : Vec Ideal S2048x256 .f32) (p : Fin 512) (o : Fin 256) :
    k0_pay2 a0 s0 a1 s1 (ix2 p o)
      = (∑ k : Fin 2048, a0 (ix3 0 p k) * s0 (ix2 k o)) + ∑ k : Fin 2048, a1 (ix3 0 p k) * s1 (ix2 k o) := by
  unfold k0_pay2
  rw [addf_apply, mmB_apply, mmB_apply]
  refine congrArg₂ (· + ·) (Finset.sum_congr rfl fun k _ => ?_) (Finset.sum_congr rfl fun k _ => ?_)
  · rw [castA_apply]
  · rw [castA_apply]

/-- What was found plus the contribution. -/
theorem pay3_apply (a0 : Vec Ideal S1x512x2048 .f32) (s0 : Vec Ideal S2048x256 .f32) (a1 : Vec Ideal S1x512x2048 .f32)
    (s1 : Vec Ideal S2048x256 .f32) (y : Vec Ideal S512x256 .f32) (p : Fin 512) (o : Fin 256) :
    k0_pay3 a0 s0 a1 s1 y (ix2 p o) = y (ix2 p o) + k0_pay2 a0 s0 a1 s1 (ix2 p o) := by
  unfold k0_pay3
  rw [shapeCast_self, addf_apply]

/-- The hyperbolic tangent of what was found plus the contribution. -/
theorem pay4_apply (a0 : Vec Ideal S1x512x2048 .f32) (s0 : Vec Ideal S2048x256 .f32) (a1 : Vec Ideal S1x512x2048 .f32)
    (s1 : Vec Ideal S2048x256 .f32) (y : Vec Ideal S512x256 .f32) (p : Fin 512) (o : Fin 256) :
    k0_pay4 a0 s0 a1 s1 y (ix2 p o) = Ideal.tanh (y (ix2 p o) + k0_pay2 a0 s0 a1 s1 (ix2 p o)) := by
  unfold k0_pay4
  rw [shapeCast_self]
  rfl

/-! ## The windows' blocks at an index

A block's element sits in its array, on each axis, at the block index times the block's size plus its own
coordinate. The three resident windows are whole arrays at block index 0; the two adjacency windows are at
(relation, row tile, half). -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- The two adjacency windows' block indices over the grid: relation, row tile, and the half. -/
theorem adj_index : ∀ t : Fin cfg0.N,
    win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 1 :=
  (by decide +kernel : ∀ t : Fin grid0.N,
    win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 1)

/-- The features' block is the features. -/
theorem iblk0_apply (c : Dev nD) (t : Fin cfg0.N) (n : Fin 4096) (d : Fin 256) :
    iblk m c 0 t (ix2 n d) = m ((c.tc : Thread nD τ).loc main_arg0) (ix2 n d) := by
  rw [← V_main_arg0 m c]
  show V m c main_arg0 (((cfg0.win 0).blk t).view.emb (ix2 n d)) = V m c main_arg0 (ix2 n d)
  refine congrArg _ (funext fun a => Fin.ext ?_)
  match a with
  | ⟨0, _⟩ => show win0_0.index t (0 : Fin 2) * 4096 + 1 * n.val = n.val; have h0 : win0_0.index t (0 : Fin 2) = 0 := rfl; omega
  | ⟨1, _⟩ => show win0_0.index t (1 : Fin 2) * 256 + 1 * d.val = d.val; have h0 : win0_0.index t (1 : Fin 2) = 0 := rfl; omega

/-- The weights' block is the weights. -/
theorem iblk1_apply (c : Dev nD) (t : Fin cfg0.N) (r : Fin 4) (o d : Fin 256) :
    iblk m c 1 t (ix3 r o d) = m ((c.tc : Thread nD τ).loc main_arg2) (ix3 r o d) := by
  rw [← V_main_arg2 m c]
  show V m c main_arg2 (((cfg0.win 1).blk t).view.emb (ix3 r o d)) = V m c main_arg2 (ix3 r o d)
  refine congrArg _ (funext fun a => Fin.ext ?_)
  match a with
  | ⟨0, _⟩ => show win0_1.index t (0 : Fin 3) * 4 + 1 * r.val = r.val; have h0 : win0_1.index t (0 : Fin 3) = 0 := rfl; omega
  | ⟨1, _⟩ => show win0_1.index t (1 : Fin 3) * 256 + 1 * o.val = o.val; have h0 : win0_1.index t (1 : Fin 3) = 0 := rfl; omega
  | ⟨2, _⟩ => show win0_1.index t (2 : Fin 3) * 256 + 1 * d.val = d.val; have h0 : win0_1.index t (2 : Fin 3) = 0 := rfl; omega

/-- The bias window's array is the biases [4,256] viewed as [4,1,256]. -/
theorem V_bias (c : Dev nD) : (V m c main_call0_v0 : S4x1x256.Idx → EReal)
    = shapeCast S4x1x256 (m ((c.tc : Thread nD τ).loc main_arg3)) shapeCasts_S4x256_S4x1x256 := by
  dsimp only [V, hostOps0]; after_results; rfl

/-- The bias window's block at (r, 0, o) is the bias of relation r, feature o. -/
theorem iblk2_apply (c : Dev nD) (t : Fin cfg0.N) (r : Fin 4) (o : Fin 256) :
    iblk m c 2 t (ix3 r 0 o) = m ((c.tc : Thread nD τ).loc main_arg3) (ix2 r o) := by
  have e : iblk m c 2 t (ix3 r 0 o) = (V m c main_call0_v0 : S4x1x256.Idx → EReal) (ix3 r 0 o) := by
    show V m c main_call0_v0 (((cfg0.win 2).blk t).view.emb (ix3 r 0 o)) = V m c main_call0_v0 (ix3 r 0 o)
    refine congrArg _ (funext fun a => Fin.ext ?_)
    match a with
    | ⟨0, _⟩ => show win0_2.index t (0 : Fin 3) * 4 + 1 * r.val = r.val; have h0 : win0_2.index t (0 : Fin 3) = 0 := rfl; omega
    | ⟨1, _⟩ => show win0_2.index t (1 : Fin 3) * 1 + 1 * 0 = 0; have h0 : win0_2.index t (1 : Fin 3) = 0 := rfl; omega
    | ⟨2, _⟩ => show win0_2.index t (2 : Fin 3) * 256 + 1 * o.val = o.val; have h0 : win0_2.index t (2 : Fin 3) = 0 := rfl; omega
  rw [e, V_bias]
  exact shapeCast_apply _ _ (ix3 r 0 o) (ix2 r o) (by
    rw [Shape.rowMajor_val_three, Shape.rowMajor_val_two]
    show r.val * 256 + o.val = (r.val * 1 + 0) * 256 + o.val
    omega)

/-- The first adjacency window's block at point t: relation t / 8, rows of tile t % 8, columns [0, 2048). -/
theorem iblk3_apply (c : Dev nD) (t : Fin cfg0.N) (p : Fin 512) (k : Fin 2048) (r : Fin 4) (P K : Fin 4096)
    (hr : r.val = t.val / 8) (hP : P.val = 512 * (t.val % 8) + p.val) (hK : K.val = k.val) :
    iblk m c 3 t (ix3 0 p k) = m ((c.tc : Thread nD τ).loc main_arg1) (ix3 r P K) := by
  rw [← V_main_arg1 m c]
  show V m c main_arg1 (((cfg0.win 3).blk t).view.emb (ix3 0 p k)) = V m c main_arg1 (ix3 r P K)
  obtain ⟨e0, e1, e2, -, -, -⟩ := adj_index t
  refine congrArg _ (funext fun a => Fin.ext ?_)
  match a with
  | ⟨0, _⟩ => show win0_3.index t (0 : Fin 3) * 1 + 1 * 0 = r.val; omega
  | ⟨1, _⟩ => show win0_3.index t (1 : Fin 3) * 512 + 1 * p.val = P.val; omega
  | ⟨2, _⟩ => show win0_3.index t (2 : Fin 3) * 2048 + 1 * k.val = K.val; omega

/-- The second adjacency window's block at point t: the same rows, columns [2048, 4096). -/
theorem iblk4_apply (c : Dev nD) (t : Fin cfg0.N) (p : Fin 512) (k : Fin 2048) (r : Fin 4) (P K : Fin 4096)
    (hr : r.val = t.val / 8) (hP : P.val = 512 * (t.val % 8) + p.val) (hK : K.val = 2048 + k.val) :
    iblk m c 4 t (ix3 0 p k) = m ((c.tc : Thread nD τ).loc main_arg1) (ix3 r P K) := by
  rw [← V_main_arg1 m c]
  show V m c main_arg1 (((cfg0.win 4).blk t).view.emb (ix3 0 p k)) = V m c main_arg1 (ix3 r P K)
  obtain ⟨-, -, -, e0, e1, e2⟩ := adj_index t
  refine congrArg _ (funext fun a => Fin.ext ?_)
  match a with
  | ⟨0, _⟩ => show win0_4.index t (0 : Fin 3) * 1 + 1 * 0 = r.val; omega
  | ⟨1, _⟩ => show win0_4.index t (1 : Fin 3) * 512 + 1 * p.val = P.val; omega
  | ⟨2, _⟩ => show win0_4.index t (2 : Fin 3) * 2048 + 1 * k.val = K.val; omega

/-! ## The loads of the body at an index -/

/-- A one-relation slab of the weights, loaded at the relation's offset. -/
theorem ldW_apply (x1 : Vec Ideal S4x256x256 .f32) (off : Fin 3 → ℕ) (inb : ∀ a, off a + S1x256x256.size a ≤ S4x256x256.size a)
    (r : Fin 4) (hoff : off = ![r.val, 0, 0]) (o d : Fin 256) :
    View.ld x1 (Rect.unit (s := S4x256x256) off S1x256x256.size inb) (ix3 0 o d) = x1 (ix3 r o d) := by
  subst hoff
  refine congrArg x1 (funext fun a => Fin.ext ?_)
  match a with
  | ⟨0, _⟩ => show r.val + 1 * 0 = r.val; omega
  | ⟨1, _⟩ => show 0 + 1 * o.val = o.val; omega
  | ⟨2, _⟩ => show 0 + 1 * d.val = d.val; omega

/-- A one-relation row of the biases, loaded at the relation's offset. -/
theorem ldB_apply (x2 : Vec Ideal S4x1x256 .f32) (off : Fin 3 → ℕ) (inb : ∀ a, off a + S1x1x256.size a ≤ S4x1x256.size a)
    (r : Fin 4) (hoff : off = ![r.val, 0, 0]) (o : Fin 256) :
    View.ld x2 (Rect.unit (s := S4x1x256) off S1x1x256.size inb) (ix3 0 0 o) = x2 (ix3 r 0 o) := by
  subst hoff
  refine congrArg x2 (funext fun a => Fin.ext ?_)
  match a with
  | ⟨0, _⟩ => show r.val + 1 * 0 = r.val; omega
  | ⟨1, _⟩ => show 0 + 1 * 0 = 0; omega
  | ⟨2, _⟩ => show 0 + 1 * o.val = o.val; omega

/-- The first 2048 rows of the supports. -/
theorem ldLo_apply (s : Vec Ideal S4096x256 .f32) (k : Fin 2048) (K : Fin 4096) (hK : K.val = k.val) (o : Fin 256) :
    View.ld s (Rect.unit (s := S4096x256) ![0, 0] S2048x256.size inb_S4096x256_S2048x256_0_0) (ix2 k o) = s (ix2 K o) := by
  refine congrArg s (funext fun a => Fin.ext ?_)
  match a with
  | ⟨0, _⟩ => show 0 + 1 * k.val = K.val; omega
  | ⟨1, _⟩ => show 0 + 1 * o.val = o.val; omega

/-- The last 2048 rows of the supports. -/
theorem ldHi_apply (s : Vec Ideal S4096x256 .f32) (k : Fin 2048) (K : Fin 4096) (hK : K.val = 2048 + k.val) (o : Fin 256) :
    View.ld s (Rect.unit (s := S4096x256) ![2048, 0] S2048x256.size inb_S4096x256_S2048x256_2048_0) (ix2 k o) = s (ix2 K o) := by
  refine congrArg s (funext fun a => Fin.ext ?_)
  match a with
  | ⟨0, _⟩ => show 2048 + 1 * k.val = K.val; omega
  | ⟨1, _⟩ => show 0 + 1 * o.val = o.val; omega

/-- A 512-row tile of the output's buffer, loaded at the tile's offset. -/
theorem ldTile_apply (Y : Vec Ideal S4096x256 .f32) (off : Fin 2 → ℕ) (inb : ∀ a, off a + S512x256.size a ≤ S4096x256.size a)
    (mm : ℕ) (hoff : off = ![512 * mm, 0]) (q : Fin 512) (P : Fin 4096) (hP : P.val = 512 * mm + q.val) (o : Fin 256) :
    View.ld Y (Rect.unit (s := S4096x256) off S512x256.size inb) (ix2 q o) = Y (ix2 P o) := by
  subst hoff
  refine congrArg Y (funext fun a => Fin.ext ?_)
  match a with
  | ⟨0, _⟩ => show 512 * mm + 1 * q.val = P.val; omega
  | ⟨1, _⟩ => show 0 + 1 * o.val = o.val; omega

/-! ## The supports -/

/-- The supports payload over the three resident blocks, at the relation the point is in. -/
theorem supOf_apply (x0 : Vec Ideal S4096x256 .f32) (x1 : Vec Ideal S4x256x256 .f32) (x2 : Vec Ideal S4x1x256 .f32)
    (i : grid0.Coords) (h1 : k0_cond1 i = 1#1) (r : Fin 4) (hr : (i 0).val = r.val) (n : Fin 4096) (o : Fin 256) :
    supOf x0 x1 x2 i h1 (ix2 n o) = (∑ d : Fin 256, x0 (ix2 n d) * x1 (ix3 r o d)) + x2 (ix3 r 0 o) := by
  unfold supOf
  rw [pay1_apply, View.ld_unit_zero hz2, ldB_apply x2 _ _ r (by rw [k0_off2_eq, hr])]
  refine congrArg (· + _) (Finset.sum_congr rfl fun d _ => ?_)
  rw [ldW_apply x1 _ _ r (by rw [k0_off1_eq, hr])]

/-- What the scratch holds after point n: the supports of relation n / 8. -/
theorem scrAt_apply (c : Dev nD) (n : ℕ) (hn : n < cfg0.N) (r : Fin 4) (hr : r.val = n / 8) (k : Fin 4096) (o : Fin 256) :
    scrAt m c n hn (ix2 k o)
      = Cert.RgcnSpec.supports (m ((c.tc : Thread nD τ).loc main_arg0)) (m ((c.tc : Thread nD τ).loc main_arg2))
          (m ((c.tc : Thread nD τ).loc main_arg3)) r k o := by
  unfold scrAt supAt
  refine (supOf_apply _ _ _ _ _ r ?_ k o).trans ?_
  · rw [coords0]; show 8 * (n / 8) / 8 = r.val; omega
  · unfold Cert.RgcnSpec.supports
    rw [iblk2_apply]
    refine congrArg (· + _) (Finset.sum_congr rfl fun d _ => ?_)
    rw [iblk0_apply, iblk1_apply]

/-! ## The contribution of a tile -/

/-- A sum over 4096 nodes, in halves. -/
theorem sum_halves (f : Fin 4096 → EReal) :
    ∑ n : Fin 4096, f n = (∑ k : Fin 2048, f ⟨k.val, Nat.lt_of_lt_of_le k.isLt (by decide)⟩)
      + ∑ k : Fin 2048, f ⟨2048 + k.val, by have := k.isLt; omega⟩ :=
  Fin.sum_univ_add (M := EReal) (a := 2048) (b := 2048) f

/-- The first adjacency half-tile the body loads at point t. -/
theorem adjLo_apply (c : Dev nD) (t : Fin cfg0.N) (p : Fin 512) (k : Fin 2048) (r : Fin 4) (P K : Fin 4096)
    (hr : r.val = t.val / 8) (hP : P.val = 512 * (t.val % 8) + p.val) (hK : K.val = k.val) :
    adjLo m c t (ix3 0 p k) = m ((c.tc : Thread nD τ).loc main_arg1) (ix3 r P K) :=
  (congrFun (View.ld_unit_zero (S := S1x512x2048) hz3 inb_S1x512x2048_S1x512x2048_0_0_0 (iblk m c 3 t)) (ix3 0 p k)).trans
    (iblk3_apply m c t p k r P K hr hP hK)

/-- The second adjacency half-tile the body loads at point t. -/
theorem adjHi_apply (c : Dev nD) (t : Fin cfg0.N) (p : Fin 512) (k : Fin 2048) (r : Fin 4) (P K : Fin 4096)
    (hr : r.val = t.val / 8) (hP : P.val = 512 * (t.val % 8) + p.val) (hK : K.val = 2048 + k.val) :
    adjHi m c t (ix3 0 p k) = m ((c.tc : Thread nD τ).loc main_arg1) (ix3 r P K) :=
  (congrFun (View.ld_unit_zero (S := S1x512x2048) hz3 inb_S1x512x2048_S1x512x2048_0_0_0 (iblk m c 4 t)) (ix3 0 p k)).trans
    (iblk4_apply m c t p k r P K hr hP hK)

/-- The first half of the supports the body loads at point t. -/
theorem supLo_apply (c : Dev nD) (t : Fin cfg0.N) (r : Fin 4) (hr : r.val = t.val / 8) (k : Fin 2048) (K : Fin 4096)
    (hK : K.val = k.val) (o : Fin 256) :
    supLo m c t (ix2 k o)
      = Cert.RgcnSpec.supports (m ((c.tc : Thread nD τ).loc main_arg0)) (m ((c.tc : Thread nD τ).loc main_arg2))
          (m ((c.tc : Thread nD τ).loc main_arg3)) r K o := by
  unfold supLo
  rw [ldLo_apply _ k K hK o, scrAt_apply m c t.val t.isLt r hr]

/-- The second half of the supports the body loads at point t. -/
theorem supHi_apply (c : Dev nD) (t : Fin cfg0.N) (r : Fin 4) (hr : r.val = t.val / 8) (k : Fin 2048) (K : Fin 4096)
    (hK : K.val = 2048 + k.val) (o : Fin 256) :
    supHi m c t (ix2 k o)
      = Cert.RgcnSpec.supports (m ((c.tc : Thread nD τ).loc main_arg0)) (m ((c.tc : Thread nD τ).loc main_arg2))
          (m ((c.tc : Thread nD τ).loc main_arg3)) r K o := by
  unfold supHi
  rw [ldHi_apply _ k K hK o, scrAt_apply m c t.val t.isLt r hr]

/-- The contribution payload at point t, row p of the tile: relation t / 8's adjacency row 512 (t % 8) + p against
    its supports. -/
theorem tile_contrib (c : Dev nD) (t : Fin cfg0.N) (r : Fin 4) (hr : r.val = t.val / 8) (p : Fin 512) (P : Fin 4096)
    (hP : P.val = 512 * (t.val % 8) + p.val) (o : Fin 256) :
    k0_pay2 (adjLo m c t) (supLo m c t) (adjHi m c t) (supHi m c t) (ix2 p o)
      = Cert.RgcnSpec.contrib (m ((c.tc : Thread nD τ).loc main_arg0)) (m ((c.tc : Thread nD τ).loc main_arg1))
          (m ((c.tc : Thread nD τ).loc main_arg2)) (m ((c.tc : Thread nD τ).loc main_arg3)) r P o := by
  rw [pay2_apply]
  unfold Cert.RgcnSpec.contrib
  rw [sum_halves]
  refine congrArg₂ (· + ·) (Finset.sum_congr rfl fun k _ => ?_) (Finset.sum_congr rfl fun k _ => ?_)
  · rw [adjLo_apply m c t p k r P ⟨k.val, Nat.lt_of_lt_of_le k.isLt (by decide)⟩ hr hP rfl,
      supLo_apply m c t r hr k ⟨k.val, Nat.lt_of_lt_of_le k.isLt (by decide)⟩ rfl o]
  · rw [adjHi_apply m c t p k r P ⟨2048 + k.val, by have := k.isLt; omega⟩ hr hP rfl,
      supHi_apply m c t r hr k ⟨2048 + k.val, by have := k.isLt; omega⟩ rfl o]

/-! ## A point's write into the output's buffer, at an index

Point t overlays the 512 rows of tile t % 8; every other row is as found. -/

/-- Inside the tile the overlay is the payload. -/
theorem overlay_in (Y : Vec Ideal S4096x256 .f32) (off : Fin 2 → ℕ) (inb : ∀ a, off a + S512x256.size a ≤ S4096x256.size a)
    (mm : ℕ) (hoff : off = ![512 * mm, 0]) (G : Vec Ideal S512x256 .f32) (q : Fin 512) (P : Fin 4096)
    (hP : P.val = 512 * mm + q.val) (o : Fin 256) :
    (Rect.unit (s := S4096x256) off S512x256.size inb).overlay Y G (ix2 P o) = G (ix2 q o) := by
  subst hoff
  have e : ix2 P o = (Rect.unit (s := S4096x256) ![512 * mm, 0] S512x256.size inb).emb (ix2 q o) := funext fun a => Fin.ext (by
    match a with
    | ⟨0, _⟩ => show P.val = 512 * mm + 1 * q.val; omega
    | ⟨1, _⟩ => show o.val = 0 + 1 * o.val; omega)
  rw [e]
  exact Rect.overlay_emb _ _ _ _

/-- Outside the tile the overlay is what was there. -/
theorem overlay_out (Y : Vec Ideal S4096x256 .f32) (off : Fin 2 → ℕ) (inb : ∀ a, off a + S512x256.size a ≤ S4096x256.size a)
    (mm : ℕ) (hoff : off = ![512 * mm, 0]) (G : Vec Ideal S512x256 .f32) (P : Fin 4096) (hP : P.val / 512 ≠ mm) (o : Fin 256) :
    (Rect.unit (s := S4096x256) off S512x256.size inb).overlay Y G (ix2 P o) = Y (ix2 P o) := by
  subst hoff
  refine Rect.overlay_of_not_mem _ _ _ ?_
  rw [Rect.mem_set_unit]
  intro hmem
  have h0 : 512 * mm ≤ P.val ∧ P.val < 512 * mm + 512 := hmem 0
  omega

/-! ## The invariant of the output's buffer

Tile j is rewritten by the points 8 r + j, one per relation r, so by (n + 7 - j) / 8 of the points below n. A row
rewritten k + 1 times holds the first k + 1 contributions added in the kernel's order, and after the fourth the
tanh of the sum. -/

/-- Relation r's contribution to row p, feature o, from the four argument arrays. -/
abbrev cbOf (c : Dev nD) (r : Fin 4) (p : Fin 4096) (o : Fin 256) : EReal :=
  Cert.RgcnSpec.contrib (m ((c.tc : Thread nD τ).loc main_arg0)) (m ((c.tc : Thread nD τ).loc main_arg1))
    (m ((c.tc : Thread nD τ).loc main_arg2)) (m ((c.tc : Thread nD τ).loc main_arg3)) r p o

/-- What a row holds after its tile has been rewritten k + 1 times. -/
def stage (c : Dev nD) (p : Fin 4096) (o : Fin 256) : ℕ → EReal
  | 0 => cbOf m c 0 p o
  | 1 => cbOf m c 0 p o + cbOf m c 1 p o
  | 2 => cbOf m c 0 p o + cbOf m c 1 p o + cbOf m c 2 p o
  | _ => Ideal.tanh (cbOf m c 0 p o + cbOf m c 1 p o + cbOf m c 2 p o + cbOf m c 3 p o)

/-- The buffer after the points below n. -/
def Inv (c : Dev nD) (n : ℕ) (Y : Vec Ideal S4096x256 .f32) : Prop :=
  ∀ (p : Fin 4096) (o : Fin 256) (k : ℕ), (n + 7 - p.val / 512) / 8 = k + 1 → Y (ix2 p o) = stage m c p o k

/-- Point t carries the invariant from t to t + 1. -/
theorem inv_step (c : Dev nD) (t : Fin cfg0.N) (Y : Vec Ideal S4096x256 .f32) (h : Inv m c t.val Y) :
    Inv m c (t.val + 1) (outNew m c t Y) := by
  have hN : cfg0.N = 32 := N_0
  have ht := t.isLt
  have hc1 := coords1 t
  have h2 := hcond2 t
  have h3 := hcond3 t
  have h4 := hcond4 t
  intro p o k hk
  have hp := p.isLt
  by_cases hin : p.val / 512 = t.val % 8
  · have hq : p.val % 512 < 512 := Nat.mod_lt _ (by decide)
    have hP : p.val = 512 * (t.val % 8) + (⟨p.val % 512, hq⟩ : Fin 512).val := by
      show p.val = 512 * (t.val % 8) + p.val % 512
      omega
    unfold outNew
    by_cases c2 : k0_cond2 (grid0.coords t) = 1#1
    · rw [dif_pos c2, overlay_in Y _ _ (t.val % 8) (by rw [k0_off3_eq, hc1]) _ ⟨p.val % 512, hq⟩ p hP o,
        tile_contrib m c t 0 (by have := h2.mp c2; omega) ⟨p.val % 512, hq⟩ p hP o]
      have hk0 : k = 0 := by have := h2.mp c2; omega
      subst hk0
      rfl
    · rw [dif_neg c2]
      by_cases c3 : k0_cond3 (grid0.coords t) = 1#1
      · rw [dif_pos c3, overlay_in Y _ _ (t.val % 8) (by rw [k0_off4_eq, hc1]) _ ⟨p.val % 512, hq⟩ p hP o, pay3_apply,
          ldTile_apply Y _ _ (t.val % 8) (by rw [k0_off4_eq, hc1]) ⟨p.val % 512, hq⟩ p hP o]
        rcases h3.mp c3 with hr | hr
        · rw [tile_contrib m c t 1 (by omega) ⟨p.val % 512, hq⟩ p hP o, h p o 0 (by omega)]
          have hk1 : k = 1 := by omega
          subst hk1
          rfl
        · rw [tile_contrib m c t 2 (by omega) ⟨p.val % 512, hq⟩ p hP o, h p o 1 (by omega)]
          have hk2 : k = 2 := by omega
          subst hk2
          rfl
      · rw [dif_neg c3]
        by_cases c4 : k0_cond4 (grid0.coords t) = 1#1
        · rw [dif_pos c4, overlay_in Y _ _ (t.val % 8) (by rw [k0_off5_eq, hc1]) _ ⟨p.val % 512, hq⟩ p hP o, pay4_apply,
            ldTile_apply Y _ _ (t.val % 8) (by rw [k0_off5_eq, hc1]) ⟨p.val % 512, hq⟩ p hP o,
            tile_contrib m c t 3 (by have := h4.mp c4; omega) ⟨p.val % 512, hq⟩ p hP o, h p o 2 (by have := h4.mp c4; omega)]
          have hk3 : k = 3 := by have := h4.mp c4; omega
          subst hk3
          rfl
        · exfalso
          have n2 := mt h2.mpr c2
          have n3 := mt h3.mpr c3
          have n4 := mt h4.mpr c4
          omega
  · have hY := h p o k (by omega)
    unfold outNew
    by_cases c2 : k0_cond2 (grid0.coords t) = 1#1
    · rw [dif_pos c2, overlay_out Y _ _ (t.val % 8) (by rw [k0_off3_eq, hc1]) _ p hin o, hY]
    · rw [dif_neg c2]
      by_cases c3 : k0_cond3 (grid0.coords t) = 1#1
      · rw [dif_pos c3, overlay_out Y _ _ (t.val % 8) (by rw [k0_off4_eq, hc1]) _ p hin o, hY]
      · rw [dif_neg c3]
        by_cases c4 : k0_cond4 (grid0.coords t) = 1#1
        · rw [dif_pos c4, overlay_out Y _ _ (t.val % 8) (by rw [k0_off5_eq, hc1]) _ p hin o, hY]
        · rw [dif_neg c4, hY]

/-! ## The output window over the grid -/

/-- The output window is never fetched. -/
theorem fetch0_5 : ∀ t : Fin cfg0.N, (cfg0.win 5).fetch t = false :=
  (by decide +kernel : ∀ t : Fin grid0.N, win0_5.fetch t = false)

/-- A number below 32 is a grid point. -/
theorem lt_N (n : ℕ) (h : n < 32) : n < cfg0.N := by
  have hN : cfg0.N = 32 := N_0
  omega

/-- The last grid point. -/
def tLast : Fin cfg0.N := ⟨31, lt_N 31 (by decide)⟩

/-- The array after the run: the one write-back, at the last point, writes the whole buffer as the body left it. -/
theorem arr_last (c : Dev nD) (B : Buf (Elt Ideal) ((cfg0.win 5).arr.view.loc (c.tc : Thread nD τ)))
    (h : (rdat (F := Ideal) m c).ArrAt 5 cfg0.N B) :
    ∃ X, (rdat (F := Ideal) m c).Leaves 5 tLast X ∧ ∀ (p : Fin 4096) (o : Fin 256), B (ix2 p o) = X (ix2 p o) := by
  have e : cfg0.N = tLast.val + 1 := N_0
  rw [e, (rdat (F := Ideal) m c).ArrAt_succ 5 tLast, if_pos ((flush0_5 tLast).mpr rfl)] at h
  obtain ⟨G₀, X, -, hX, rfl⟩ := h
  refine ⟨X, hX, fun p o => ?_⟩
  have hw := View.write_emb_of_mem (v := ((cfg0.win 5).blk tLast).view) G₀ ((cfg0.win 5).cut (cfg0.grid.coords tLast) X)
    (M := Finset.univ) (x := (ix2 p o : ((cfg0.win 5).xblock (cfg0.grid.coords tLast)).Idx)) (Finset.mem_univ _)
  have he : ((cfg0.win 5).blk tLast).view.emb (ix2 p o : ((cfg0.win 5).xblock (cfg0.grid.coords tLast)).Idx) = ix2 p o := by
    funext a; apply Fin.ext
    match a with
    | ⟨0, _⟩ => show win0_5.index tLast (0 : Fin 2) * 4096 + 1 * p.val = p.val; have h0 : win0_5.index tLast (0 : Fin 2) = 0 := rfl; omega
    | ⟨1, _⟩ => show win0_5.index tLast (1 : Fin 2) * 256 + 1 * o.val = o.val; have h0 : win0_5.index tLast (1 : Fin 2) = 0 := rfl; omega
  rw [he] at hw
  rw [hw, cast_eq]
  exact congrArg X (funext fun a => Fin.ext (by match a with | ⟨0, _⟩ => rfl | ⟨1, _⟩ => rfl))

/-! ## The buffer along the run, and the array after the last write-back -/

/-- What the body may leave in the output's buffer at point n satisfies the invariant at n + 1: the window is never
    fetched and is written back at the last point only, so what the body finds is what it left the point before. -/
theorem leaves_inv (c : Dev nD) : ∀ (n : ℕ) (hn : n < cfg0.N) (X : Vec Ideal S4096x256 .f32),
    (rdat (F := Ideal) m c).Leaves 5 ⟨n, hn⟩ X → Inv m c (n + 1) X
  | 0, hn, X, ⟨Y, _, hXY⟩ => by
    rw [after5] at hXY
    subst hXY
    exact inv_step m c ⟨0, hn⟩ Y (show Inv m c 0 Y from fun p o k hk => by have := p.isLt; omega)
  | n + 1, hn, X, ⟨Y, hY, hXY⟩ => by
    rw [after5] at hXY
    subst hXY
    refine inv_step m c ⟨n + 1, hn⟩ Y ?_
    rw [(rdat (F := Ideal) m c).finds_of_pos (fetch0_5 _) (Nat.succ_ne_zero n)] at hY
    rcases hY with hfl | hL
    · exfalso
      have hN : cfg0.N = 32 := N_0
      have h31 : (n + 1 - 1) % 32 = 31 := (flush0_5 _).mp hfl
      omega
    · exact leaves_inv c n _ Y hL

/-- Whatever the output array may hold after the last write-back is the layer of the four argument arrays. -/
theorem out_value (c : Dev nD) (B : Buf (Elt Ideal) ((cfg0.win 5).arr.view.loc (c.tc : Thread nD τ)))
    (h : (rdat (F := Ideal) m c).ArrAt 5 cfg0.N B) :
    B = Cert.RgcnSpec.layer (m ((c.tc : Thread nD τ).loc main_arg0)) (m ((c.tc : Thread nD τ).loc main_arg1))
          (m ((c.tc : Thread nD τ).loc main_arg2)) (m ((c.tc : Thread nD τ).loc main_arg3)) := by
  obtain ⟨X, hX, hB⟩ := arr_last m c B h
  have hI := leaves_inv m c 31 tLast.isLt X hX
  refine funext fun (j : (⟨2, ![4096, 256]⟩ : Shape).Idx) => ?_
  obtain ⟨p, o, rfl⟩ : ∃ (p : Fin 4096) (o : Fin 256), j = ix2 p o := ⟨j 0, j 1, eq_ix2 j⟩
  rw [hB, hI p o 3 (by have := p.isLt; omega), Cert.RgcnSpec.layer_ix2]
  show Ideal.tanh (cbOf m c 0 p o + cbOf m c 1 p o + cbOf m c 2 p o + cbOf m c 3 p o) = _
  unfold Cert.RgcnSpec.layerAt
  rw [Fin.sum_univ_four]

end Cert.KernelIdeal.Rgcn

end
-- ==== Proof.KI.FrameOf.lean ====
import proofs.«119680_g8435315769495_cont_9to1_m_1357_9_alg».proof.Proof.KI.Data

set_option maxRecDepth 16384

noncomputable section

namespace Cert.KernelIdeal.Rgcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-! The frame claim's post from the run's: the three staged argument arrays are inputs of the pipeline
and end at their entry contents; the bias array is staged by no window and bypasses the region; the
one host operation before the region writes none of the four. -/

variable (m : (ℓ : Loc nD τ sig) → Buf (Elt F) ℓ) (ρ : Dev nD → PrngReg)

/-- Each argument array ends as launched, from the run's post at one core. -/
theorem args_kept {r : PUnit × MemSt nD τ sig (Elt F)} (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Pipeline.RDat.FramePost.arr_in h c 0 rfl).trans ((A_eq m c 0).trans (V_main_arg0 m c)),
    (Pipeline.RDat.FramePost.arr_in h c 3 rfl).trans ((A_eq m c 3).trans (V_main_arg1 m c)),
    (Pipeline.RDat.FramePost.arr_in h c 1 rfl).trans ((A_eq m c 1).trans (V_main_arg2 m c)),
    ((h c).2 main_arg3 (Pipeline.mem_restRefs_of main_arg3 (by decide) (by decide))).trans (V_main_arg3 m c)⟩

/-- The frame: the program runs and its argument arrays end unchanged. -/
theorem frame_of (h : θ_run defs (onTc (τ := τ) (main (F := F))) (s₀ m ρ) (Pipeline.RDat.FramePost cfg0 (rdat m) (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => args_kept m h c) h

end Cert.KernelIdeal.Rgcn

end
-- ==== Proof.KI.ValueOf.lean ====
import proofs.«119680_g8435315769495_cont_9to1_m_1357_9_alg».proof.Proof.KI.OutValue
import proofs.«119680_g8435315769495_cont_9to1_m_1357_9_alg».proof.Proof.KI.FrameOf

/-! The idealized kernel's run with its result named: the output array ends at the layer of the four
argument arrays, which end unchanged. -/

noncomputable section

namespace Cert.KernelIdeal.Rgcn

open Idealize.ShloMosaic Idealize.ShloMosaic.TcCoe
open Idealize.SL Idealize.SL.Sem
open Idealize.ShloMosaic.Pipeline (RDat)
open Cert.KernelIdeal Cert.KernelIdeal.Gen

variable (m : (ℓ : Loc nD τ sig) → Buf (Elt Ideal) ℓ) (ρ : Dev nD → PrngReg)

theorem value_of (h : θ_run defs (onTc (τ := τ) (main (F := Ideal))) (s₀ m ρ) (Pipeline.RDat.FramePost cfg0 (rdat (F := Ideal) m) (V m))) :
    θ_run defs (onTc (τ := τ) (main (F := Ideal))) ⟨m, fun _ => 0, ρ⟩ (fun r => ∀ c : Dev nD,
      r.2.mem ((c.tc : Thread nD τ).loc main_v0)
          = Cert.RgcnSpec.layer (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨out_value m c _ ((h c).1 5), args_kept m h c⟩) h

end Cert.KernelIdeal.Rgcn

end
-- ==== Proof.Ref.RefValue.lean ====
import proofs.«119680_g8435315769495_cont_9to1_m_1357_9_alg».proof.Proof.Gen.ReferenceIdeal.Run
import proofs.«119680_g8435315769495_cont_9to1_m_1357_9_alg».proof.Proof.Gen.ReferenceIdeal.Read
import proofs.«119680_g8435315769495_cont_9to1_m_1357_9_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.ReferenceIdeal.RefValue

open Idealize.ShloMosaic Idealize.ShloMosaic.TcCoe Idealize.ShloMosaic.ValueIdx
open Idealize.SL Idealize.SL.Sem
open Cert.ReferenceIdeal Cert.ReferenceIdeal.Gen

open Cert.ReferenceIdeal.Read
open scoped BigOperators

/-- The biased linear layer read at (r, n, o). The transposed product's entry there is the product's entry at
    (r, o, n), which is Σ_d W[r,o,d] · x[n,d]; the bias broadcast twice (first to [r,1,o], then along n) has the
    entry b[r,o]. Commuting the two factors under the sum gives the specification's `supports`. -/
theorem v4_at (x : (⟨S4096x256, .f32⟩ : BufTy).Contents (Elt Ideal)) (W : (⟨S4x256x256, .f32⟩ : BufTy).Contents (Elt Ideal))
    (b : (⟨S4x256, .f32⟩ : BufTy).Contents (Elt Ideal)) (r : Fin 4) (n : Fin 4096) (o : Fin 256) :
    val_main_v4 (F := Ideal) x W b (ix3 r n o) = Cert.RgcnSpec.supports x W b r n o := by
  have e1 : idx_main_v2 (idx_main_v3 (ix3 r n o)) = ix2 r o :=
    funext fun a => Fin.ext (by match a with | ⟨0, _⟩ => rfl | ⟨1, _⟩ => rfl)
  have e2 : ∀ d : Fin 256, lidx_main_v0 (idx_main_v1 (ix3 r n o)) d = ix3 r o d := fun d =>
    funext fun a => Fin.ext (by match a with | ⟨0, _⟩ => rfl | ⟨1, _⟩ => rfl | ⟨2, _⟩ => rfl)
  have e3 : ∀ d : Fin 256, ridx_main_v0 (idx_main_v1 (ix3 r n o)) d = ix2 n d := fun d =>
    funext fun a => Fin.ext (by match a with | ⟨0, _⟩ => rfl | ⟨1, _⟩ => rfl)
  rw [val_main_v4_apply, val_main_v1_apply, val_main_v3_apply, val_main_v2_apply, val_main_v0_apply, e1,
    Ideal.addf_def]
  unfold Cert.RgcnSpec.supports
  refine congrArg (· + b (ix2 r o)) (Finset.sum_congr rfl fun d _ => ?_)
  rw [e2, e3]
  exact mul_comm _ _

/-- The batched product read at (r, p, o): with r the batch axis, its entry is Σ_n adjs[r,p,n] · v4[r,n,o], the
    specification's `contrib`. -/
theorem v5_at (x : (⟨S4096x256, .f32⟩ : BufTy).Contents (Elt Ideal)) (adjs : (⟨S4x4096x4096, .f32⟩ : BufTy).Contents (Elt Ideal))
    (W : (⟨S4x256x256, .f32⟩ : BufTy).Contents (Elt Ideal)) (b : (⟨S4x256, .f32⟩ : BufTy).Contents (Elt Ideal))
    (r : Fin 4) (p : Fin 4096) (o : Fin 256) :
    val_main_v5 (F := Ideal) x adjs W b (ix3 r p o) = Cert.RgcnSpec.contrib x adjs W b r p o := by
  have e1 : ∀ n : Fin 4096, lidx_main_v5 (ix3 r p o) n = ix3 r p n := fun n =>
    funext fun a => Fin.ext (by match a with | ⟨0, _⟩ => rfl | ⟨1, _⟩ => rfl | ⟨2, _⟩ => rfl)
  have e2 : ∀ n : Fin 4096, ridx_main_v5 (ix3 r p o) n = ix3 r n o := fun n =>
    funext fun a => Fin.ext (by match a with | ⟨0, _⟩ => rfl | ⟨1, _⟩ => rfl | ⟨2, _⟩ => rfl)
  rw [val_main_v5_apply]
  unfold Cert.RgcnSpec.contrib
  refine Finset.sum_congr rfl fun n _ => ?_
  rw [e1, e2, v4_at]

/-- The reference's composed term is the layer: at (p, o) the reduction over the relation axis from the initial
    value 0 is 0 + Σ_r v5[r,p,o], and the hyperbolic tangent of that sum is the specification's `layerAt`. -/
theorem result_eq (x : (⟨S4096x256, .f32⟩ : BufTy).Contents (Elt Ideal)) (adjs : (⟨S4x4096x4096, .f32⟩ : BufTy).Contents (Elt Ideal))
    (W : (⟨S4x256x256, .f32⟩ : BufTy).Contents (Elt Ideal)) (b : (⟨S4x256, .f32⟩ : BufTy).Contents (Elt Ideal)) :
    val_main_v7 (F := Ideal) x adjs W b = Cert.RgcnSpec.layer x adjs W b := by
  funext j
  obtain ⟨p, o, rfl⟩ : ∃ (p : Fin 4096) (o : Fin 256), j = ix2 p o := ⟨j 0, j 1, eq_ix2 j⟩
  have e1 : ∀ r : Fin 4, idx_main_v6 (ix2 p o) r = ix3 r p o := fun r =>
    funext fun a => Fin.ext (by match a with | ⟨0, _⟩ => rfl | ⟨1, _⟩ => rfl | ⟨2, _⟩ => rfl)
  rw [Cert.RgcnSpec.layer_ix2, val_main_v7_apply, val_main_v6_apply, val_main_cst_apply, Ideal.hostUnary_tanh_def,
    Ideal.ofBits_def, Ideal.ofBits_zero_f32, zero_add]
  unfold Cert.RgcnSpec.layerAt
  refine congrArg Ideal.tanh (Finset.sum_congr rfl fun r _ => ?_)
  rw [e1, v5_at]

/-- The reference runs to the layer of its argument arrays, its arguments unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v7)
          = Cert.RgcnSpec.layer (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run Cert.ReferenceIdeal.defs _ _).mono
    (fun _ h c => ⟨(h c).1.trans ((val_main_v7_eq (F := Ideal) _ _ _ _).trans (result_eq _ _ _ _)), (h c).2⟩)
    (Cert.ReferenceIdeal.Value.run (F := Ideal) m ρ)

end Cert.ReferenceIdeal.RefValue

end
-- ==== Proof.lean ====
import proofs.«119680_g8435315769495_cont_9to1_m_1357_9_alg».proof.Defs
import proofs.«119680_g8435315769495_cont_9to1_m_1357_9_alg».proof.Proof.Gen.Pre_finite_inputs
import proofs.«119680_g8435315769495_cont_9to1_m_1357_9_alg».proof.Proof.K.Run
import proofs.«119680_g8435315769495_cont_9to1_m_1357_9_alg».proof.Proof.K.FrameOf
import proofs.«119680_g8435315769495_cont_9to1_m_1357_9_alg».proof.Proof.KI.Run
import proofs.«119680_g8435315769495_cont_9to1_m_1357_9_alg».proof.Proof.KI.ValueOf
import proofs.«119680_g8435315769495_cont_9to1_m_1357_9_alg».proof.Proof.Ref.RefValue

/-! A relational graph-convolution layer, tanh (Σ_r adjs[r] · (x · W[r]ᵀ + b[r])), computed by one
pipelined kernel over a grid of 4 relations by 8 row tiles against the plain array program.

The kernel keeps the current relation's supports x · W[r]ᵀ + b[r] in a scratch buffer, rewritten at
each relation's first row tile, and keeps the whole result resident: each grid point adds its
512-row tile's contribution adjs[r][rows, :] · supports (taken in two halves of the contraction
axis) into the tile's rows, the last relation applying tanh. Over the extended reals both programs
are the same sums up to the order of the terms and of the two factors of each product, so no
finiteness is used. The three frames: each kernel program by the launch at its body's triples, the
reference by its run with the result dropped. -/

noncomputable section

namespace Cert.Proof

open Idealize.ShloMosaic Idealize.ShloMosaic.TcCoe Idealize.SL.Sem

theorem frame_k : Cert.frame_Kernel := fun m ρ _ =>
  Cert.Kernel.Rgcn.frame_of m ρ (Cert.Kernel.Rgcn.run_main m ρ)

theorem frame_ki : Cert.frame_KernelIdeal := fun m ρ _ =>
  Cert.KernelIdeal.Rgcn.frame_of m ρ (Cert.KernelIdeal.Rgcn.run_main m ρ)

theorem frame_ri : Cert.frame_ReferenceIdeal := fun m ρ _ =>
  (θ_run Cert.ReferenceIdeal.defs _ _).mono (fun _ h c => (h c).2) (Cert.ReferenceIdeal.RefValue.ref_run m ρ)

/-- Both idealized programs end at the layer of the argument arrays, on which the two memories agree. -/
theorem algebraic : Cert.algebraic_KernelIdeal_ReferenceIdeal := by
  intro m ρ m' ρ' _ hagree
  refine ⟨fun c => Cert.RgcnSpec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Rgcn.value_of m ρ (Cert.KernelIdeal.Rgcn.run_main m ρ), ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
